-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x32 : Shape := ⟨2, ![3, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S32 .f32) (main_arg7 : FVec F S32x2 .f32) (main_arg8 : FVec F S2 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x2 .f32 := Host.absf main_arg7
  let main_cst_8 : FVec F S_ .f32 := constant S_ .f32 0x7F800000#32
  let main_v25 : FVec F S32x2 .f32 := broadcastInDim S32x2 ![] bcast_S_S32x2 main_cst_8
  let main_v26 : IVec S32x2 1 := cmpf .olt main_v24 main_v25
  let main_c_9 : IVec S_ 1 := constantI S_ 1 1#1
  let main_v27 : IVec S_ 1 := (fun x v => Host.reduce IntOp.andi x v reducesTo_S32x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x3 .f32) (main_arg1 : IVec S2x1600000 32) (main_arg2 : IVec S100000 32) (main_arg3 : FVec F S3x32 .f32) (main_arg4 : FVec F S32 .f32) (main_arg5 : FVec F S32x32 .f32) (main_arg6 : FVec F S32 .f32) (main_arg7 : FVec F S32x2 .f32) (main_arg8 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x32 .f32 := Host.absf main_arg3
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x32 : Shape := ⟨2, ![3, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x32 : Shape := ⟨2, ![100000, 32]⟩
abbrev S10000x3 : Shape := ⟨2, ![10000, 3]⟩
abbrev S10000x32 : Shape := ⟨2, ![10000, 32]⟩
abbrev S1600000x32 : Shape := ⟨2, ![1600000, 32]⟩
abbrev S8000x32 : Shape := ⟨2, ![8000, 32]⟩
abbrev S8000x1 : Shape := ⟨2, ![8000, 1]⟩
abbrev S1x32 : Shape := ⟨2, ![1, 32]⟩
abbrev S5000x32 : Shape := ⟨2, ![5000, 32]⟩
abbrev S5000x1 : Shape := ⟨2, ![5000, 1]⟩
abbrev S512x32 : Shape := ⟨2, ![512, 32]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 99
  | .vmem => 40
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000, .i32⟩
  | .hbm, ⟨3, _⟩ => ⟨S3x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x2, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S1600000x1, .f32⟩
  | .hbm, ⟨45, _⟩ => ⟨S100000x32, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x32, .f32⟩
  | .hbm, ⟨55, _⟩ => ⟨S1600000x32, .f32⟩
  | .hbm, ⟨56, _⟩ => ⟨S_, .f32⟩
  | .hbm, ⟨57, _⟩ => ⟨S100000x32, .f32⟩
  | .hbm, ⟨58, _⟩ => ⟨S1600000x1, .i32⟩
  | .hbm, ⟨59, _⟩ => ⟨S100000x32, .f32⟩
  | .hbm, ⟨60, _⟩ => ⟨S1x32, .f32⟩
  | .hbm, ⟨61, _⟩ => ⟨S100000x32, .f32⟩
  | .hbm, ⟨62, _⟩ => ⟨S100000x32, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x32, .f32⟩
  | .hbm, ⟨72, _⟩ => ⟨S1600000x32, .f32⟩
  | .hbm, ⟨73, _⟩ => ⟨S_, .f32⟩
  | .hbm, ⟨74, _⟩ => ⟨S100000x32, .f32⟩
  | .hbm, ⟨75, _⟩ => ⟨S1600000x1, .i32⟩
  | .hbm, ⟨76, _⟩ => ⟨S100000x32, .f32⟩
  | .hbm, ⟨77, _⟩ => ⟨S1x32, .f32⟩
  | .hbm, ⟨78, _⟩ => ⟨S100000x32, .f32⟩
  | .hbm, ⟨79, _⟩ => ⟨S_, .f32⟩
  | .hbm, ⟨80, _⟩ => ⟨S512x32, .f32⟩
  | .hbm, ⟨81, _⟩ => ⟨S100000x1, .i32⟩
  | .hbm, ⟨82, _⟩ => ⟨S512x32, .f32⟩
  | .hbm, ⟨83, _⟩ => ⟨S_, .f32⟩
  | .hbm, ⟨84, _⟩ => ⟨S100000, .f32⟩
  | .hbm, ⟨85, _⟩ => ⟨S_, .f32⟩
  | .hbm, ⟨86, _⟩ => ⟨S512, .f32⟩
  | .hbm, ⟨87, _⟩ => ⟨S100000x1, .i32⟩
  | .hbm, ⟨88, _⟩ => ⟨S512, .f32⟩
  | .hbm, ⟨89, _⟩ => ⟨S_, .f32⟩
  | .hbm, ⟨90, _⟩ => ⟨S512, .f32⟩
  | .hbm, ⟨91, _⟩ => ⟨S512, .f32⟩
  | .hbm, ⟨92, _⟩ => ⟨S512x1, .f32⟩
  | .hbm, ⟨93, _⟩ => ⟨S512x32, .f32⟩
  | .hbm, ⟨94, _⟩ => ⟨S512x32, .f32⟩
  | .hbm, ⟨95, _⟩ => ⟨S512x2, .f32⟩
  | .hbm, ⟨96, _⟩ => ⟨S1x2, .f32⟩
  | .hbm, ⟨97, _⟩ => ⟨S512x2, .f32⟩
  | .hbm, ⟨98, _⟩ => ⟨S512x2, .f32⟩
  | .local _ .vmem, ⟨0, _⟩ => ⟨S10000x3, .f32⟩
  | .local _ .vmem, ⟨1, _⟩ => ⟨S10000x3, .f32⟩
  | .local _ .vmem, ⟨2, _⟩ => ⟨S3x32, .f32⟩
  | .local _ .vmem, ⟨3, _⟩ => ⟨S10000x32, .f32⟩
  | .local _ .vmem, ⟨4, _⟩ => ⟨S10000x32, .f32⟩
  | .local _ .vmem, ⟨5, _⟩ => ⟨S8000x32, .f32⟩
  | .local _ .vmem, ⟨6, _⟩ => ⟨S8000x32, .f32⟩
  | .local _ .vmem, ⟨7, _⟩ => ⟨S8000x1, .f32⟩
  | .local _ .vmem, ⟨8, _⟩ => ⟨S8000x1, .f32⟩
  | .local _ .vmem, ⟨9, _⟩ => ⟨S8000x32, .f32⟩
  | .local _ .vmem, ⟨10, _⟩ => ⟨S8000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x1, .f32⟩
  | .local _ .vmem, ⟨16, _⟩ => ⟨S5000x1, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S10000x32, .f32⟩
  | .local _ .vmem, ⟨21, _⟩ => ⟨S10000x32, .f32⟩
  | .local _ .vmem, ⟨22, _⟩ => ⟨S32x32, .f32⟩
  | .local _ .vmem, ⟨23, _⟩ => ⟨S10000x32, .f32⟩
  | .local _ .vmem, ⟨24, _⟩ => ⟨S10000x32, .f32⟩
  | .local _ .vmem, ⟨25, _⟩ => ⟨S8000x32, .f32⟩
  | .local _ .vmem, ⟨26, _⟩ => ⟨S8000x32, .f32⟩
  | .local _ .vmem, ⟨27, _⟩ => ⟨S8000x1, .f32⟩
  | .local _ .vmem, ⟨28, _⟩ => ⟨S8000x1, .f32⟩
  | .local _ .vmem, ⟨29, _⟩ => ⟨S8000x32, .f32⟩
  | .local _ .vmem, ⟨30, _⟩ => ⟨S8000x32, .f32⟩
  | .local _ .vmem, ⟨31, _⟩ => ⟨S5000x32, .f32⟩
  | .local _ .vmem, ⟨32, _⟩ => ⟨S5000x32, .f32⟩
  | .local _ .vmem, ⟨33, _⟩ => ⟨S5000x32, .f32⟩
  | .local _ .vmem, ⟨34, _⟩ => ⟨S5000x32, .f32⟩
  | .local _ .vmem, ⟨35, _⟩ => ⟨S5000x1, .f32⟩
  | .local _ .vmem, ⟨36, _⟩ => ⟨S5000x1, .f32⟩
  | .local _ .vmem, ⟨37, _⟩ => ⟨S1x32, .f32⟩
  | .local _ .vmem, ⟨38, _⟩ => ⟨S5000x32, .f32⟩
  | .local _ .vmem, ⟨39, _⟩ => ⟨S5000x32, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x32_S3x32_0_0 : ∀ a, (![0, 0] : Fin 2 → Nat) a + S3x32.size a ≤ S3x32.size a
  h_S3x32 : 0 < S3x32.numel
  inb_S10000x32_S10000x32_0_0 : ∀ a, (![0, 0] : Fin 2 → Nat) a + S10000x32.size a ≤ S10000x32.size a
  h_S10000x32 : 0 < S10000x32.numel
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x32 : S8000x1.Broadcasts S8000x32
  bcast_S_S100000x32 : S_.BroadcastsInDim S100000x32 (![] : Fin 0 → Fin S100000x32.rank)
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  bcast_S_S512x32 : S_.BroadcastsInDim S512x32 (![] : Fin 0 → Fin S512x32.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x3_S3x32_S10000x32_1_0_0_1_n_n_wf : DotDims.WF S10000x3 S3x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x32_S10000x32_1_0_0_1_n_n_wf : DotDims.WF S10000x32 S32x32 S10000x32 [1] [0] [0] [1] [] []
  scatter_S512x32_S100000x1_S100000x32_1_0_0_1_wf : ScatterDims.WF S512x32 S100000x1 S100000x32 [1] [0] [0] 1
  scatter_S512_S100000x1_S100000_n_0_0_1_wf : ScatterDims.WF S512 S100000x1 S100000 [] [0] [0] 1
  dot_S512x32_S32x2_S512x2_1_0_0_1_n_n_wf : DotDims.WF S512x32 S32x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x32.size a ≤ S3x32.size a
  hwx0_1 : ∀ i : grid0.Coords, EltTy.bits .f32 = 32 ∨ (Rect.block (s := S3x32) S3x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S1600000x32.size a
  hwx1_0 : ∀ i : grid1.Coords, EltTy.bits .f32 = 32 ∨ (Rect.block (s := S1600000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x32.size a ≤ S1600000x32.size a
  hwx1_2 : ∀ i : grid1.Coords, EltTy.bits .f32 = 32 ∨ (Rect.block (s := S1600000x32) S8000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x32.size a ≤ S100000x32.size a
  hwx2_4 : ∀ i : grid2.Coords, EltTy.bits .f32 = 32 ∨ (Rect.block (s := S100000x32) S5000x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x32.size a ≤ S1600000x32.size a
  hwx4_0 : ∀ i : grid4.Coords, EltTy.bits .f32 = 32 ∨ (Rect.block (s := S1600000x32) S8000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S1600000x1.size a
  hwx4_1 : ∀ i : grid4.Coords, EltTy.bits .f32 = 32 ∨ (Rect.block (s := S1600000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x32.size a ≤ S1600000x32.size a
  hwx4_2 : ∀ i : grid4.Coords, EltTy.bits .f32 = 32 ∨ (Rect.block (s := S1600000x32) S8000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S100000x32.size a
  hwx5_1 : ∀ i : grid5.Coords, EltTy.bits .f32 = 32 ∨ (Rect.block (s := S100000x32) S5000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x32.size a ≤ S100000x32.size a
  hwx5_4 : ∀ i : grid5.Coords, EltTy.bits .f32 = 32 ∨ (Rect.block (s := S100000x32) S5000x32.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x3_S3x32_S10000x32_1_0_0_1_n_n : DotDims S10000x3 S3x32 S10000x32 where
  lhsContracting := [1]
  rhsContracting := [0]
  lhsNonContracting := [0]
  rhsNonContracting := [1]
  lhsBatch := []
  rhsBatch := []
  wf := dot_S10000x3_S3x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x32_S32x2_S512x2_1_0_0_1_n_n : DotDims S512x32 S32x2 S512x2 where
  lhsContracting := [1]
  rhsContracting := [0]
  lhsNonContracting := [0]
  rhsNonContracting := [1]
  lhsBatch := []
  rhsBatch := []
  wf := dot_S512x32_S32x2_S512x2_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S8000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v42) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S8000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v51) S8000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v54) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v55) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v56) S5000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x32 : Shape := ⟨2, ![3, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S100000x32 : Shape := ⟨2, ![100000, 32]⟩
abbrev S_ : Shape := ⟨0, ![]⟩
abbrev S1600000x1 : Shape := ⟨2, ![1600000, 1]⟩
abbrev S1600000x32 : Shape := ⟨2, ![1600000, 32]⟩
abbrev S100000x1 : Shape := ⟨2, ![100000, 1]⟩
abbrev S1x32 : Shape := ⟨2, ![1, 32]⟩
abbrev S512x32 : Shape := ⟨2, ![512, 32]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 147
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x32, .f32⟩
  | 4 => ⟨S32, .f32⟩
  | 5 => ⟨S32x32, .f32⟩
  | 6 => ⟨S32, .f32⟩
  | 7 => ⟨S32x2, .f32⟩
  | 8 => ⟨S2, .f32⟩
  | 9 => ⟨S1x1600000, .i32⟩
  | 10 => ⟨S1600000, .i32⟩
  | 11 => ⟨S1x1600000, .i32⟩
  | 12 => ⟨S1600000, .i32⟩
  | 13 => ⟨S100000x32, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x32, .f32⟩
  | 52 => ⟨S1600000x1, .f32⟩
  | 53 => ⟨S1600000x32, .f32⟩
  | 54 => ⟨S1600000x32, .f32⟩
  | 55 => ⟨S_, .f32⟩
  | 56 => ⟨S100000x32, .f32⟩
  | 57 => ⟨S1600000x1, .i32⟩
  | 58 => ⟨S100000x32, .f32⟩
  | 59 => ⟨S100000, .f32⟩
  | 60 => ⟨S100000x1, .f32⟩
  | 61 => ⟨S100000x32, .f32⟩
  | 62 => ⟨S100000x32, .f32⟩
  | 63 => ⟨S100000x32, .f32⟩
  | 64 => ⟨S1x32, .f32⟩
  | 65 => ⟨S100000x32, .f32⟩
  | 66 => ⟨S100000x32, .f32⟩
  | 67 => ⟨S_, .f32⟩
  | 68 => ⟨S100000x32, .f32⟩
  | 69 => ⟨S100000x32, .f32⟩
  | 70 => ⟨S100000x32, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x32, .f32⟩
  | 109 => ⟨S1600000x1, .f32⟩
  | 110 => ⟨S1600000x32, .f32⟩
  | 111 => ⟨S1600000x32, .f32⟩
  | 112 => ⟨S_, .f32⟩
  | 113 => ⟨S100000x32, .f32⟩
  | 114 => ⟨S1600000x1, .i32⟩
  | 115 => ⟨S100000x32, .f32⟩
  | 116 => ⟨S100000, .f32⟩
  | 117 => ⟨S100000x1, .f32⟩
  | 118 => ⟨S100000x32, .f32⟩
  | 119 => ⟨S100000x32, .f32⟩
  | 120 => ⟨S100000x32, .f32⟩
  | 121 => ⟨S1x32, .f32⟩
  | 122 => ⟨S100000x32, .f32⟩
  | 123 => ⟨S100000x32, .f32⟩
  | 124 => ⟨S_, .f32⟩
  | 125 => ⟨S100000x32, .f32⟩
  | 126 => ⟨S100000x32, .f32⟩
  | 127 => ⟨S_, .f32⟩
  | _ => ⟨S100000x3, .f32⟩

abbrev hbmTy0_1 (i : Nat) : BufTy := match i % 128 with
  | 0 => ⟨S512x32, .f32⟩
  | 1 => ⟨S100000x1, .i32⟩
  | 2 => ⟨S512x32, .f32⟩
  | 3 => ⟨S_, .f32⟩
  | 4 => ⟨S100000, .f32⟩
  | 5 => ⟨S_, .f32⟩
  | 6 => ⟨S512, .f32⟩
  | 7 => ⟨S100000x1, .i32⟩
  | 8 => ⟨S512, .f32⟩
  | 9 => ⟨S_, .f32⟩
  | 10 => ⟨S512, .f32⟩
  | 11 => ⟨S512, .f32⟩
  | 12 => ⟨S512x1, .f32⟩
  | 13 => ⟨S512x32, .f32⟩
  | 14 => ⟨S512x32, .f32⟩
  | 15 => ⟨S512x2, .f32⟩
  | 16 => ⟨S1x2, .f32⟩
  | 17 => ⟨S512x2, .f32⟩
  | 18 => ⟨S512x2, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S512x32 : S_.BroadcastsInDim S512x32 (![] : Fin 0 → Fin S512x32.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  dot_S100000x3_S3x32_S100000x32_1_0_0_1_n_n_wf : DotDims.WF S100000x3 S3x32 S100000x32 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  scatter_S512x32_S100000x1_S100000x32_1_0_0_1_wf : ScatterDims.WF S512x32 S100000x1 S100000x32 [1] [0] [0] 1
  scatter_S512_S100000x1_S100000_n_0_0_1_wf : ScatterDims.WF S512 S100000x1 S100000 [] [0] [0] 1
  dot_S512x32_S32x2_S512x2_1_0_0_1_n_n_wf : DotDims.WF S512x32 S32x2 S512x2 [1] [0] [0] [1] [] []

variable [Facts₀]

def dot_S100000x3_S3x32_S100000x32_1_0_0_1_n_n : DotDims S100000x3 S3x32 S100000x32 where
  lhsContracting := [1]
  rhsContracting := [0]
  lhsNonContracting := [0]
  rhsNonContracting := [1]
  lhsBatch := []
  rhsBatch := []
  wf := dot_S100000x3_S3x32_S100000x32_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x32_S32x2_S512x2_1_0_0_1_n_n : DotDims S512x32 S32x2 S512x2 where
  lhsContracting := [1]
  rhsContracting := [0]
  lhsNonContracting := [0]
  rhsNonContracting := [1]
  lhsBatch := []
  rhsBatch := []
  wf := dot_S512x32_S32x2_S512x2_1_0_0_1_n_n_wf

class Facts : Prop extends Facts₀ where

variable [Facts]
-- ==== Proof.Carry.lean ====
/-
  Which buffers each segment of the program leaves alone. A stretch of host operations rewrites only its own result
  buffers; a region rewrites only its output array (its input arrays end as they were entered). So a value computed
  early — the edge endpoints, the normalisation coefficients, a layer's projected features — is still there, unchanged,
  when a later segment reads it.
-/
import proofs.«118910_j31868657336593_1_alg».proof.Proof.Gen.KernelIdeal.Frame
import Idealize.ShloMosaic.Lib.StableHlo.Run

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The result buffers of the host stretch `hostOps0`. -/
def written0 : List (Ref sig .tc) := [main_v0, main_v1, main_v2, main_v3, main_cst, main_v4, main_cst_0, main_v5, main_v6, main_v7, main_cst_1, main_v8, main_v9, main_v10, main_v11, main_v12, main_c, main_v13, main_v14, main_c_2, main_v15, main_v16, main_v17, main_v18, main_v19, main_c_3, main_v20, main_v21, main_c_4, main_v22, main_v23, main_v24, main_v25, main_v26, main_v27, main_v28]

/-- Every operation of the stretch writes one of them. -/
theorem writes0 : (hostOps0 : List (HloOp τ sig (Elt F))).Forall fun op =>
    op.writes ⊆ ((written0.map (Proc.devRef (τ := τ) .tc)).toFinset) := by
  simp only [hostOps0, List.Forall, StableHlo.nullary_writes, StableHlo.unary_writes, StableHlo.binary_writes,
    StableHlo.ternary_writes, StableHlo.quaternary_writes, StableHlo.reshape_writes, Finset.singleton_subset_iff, List.mem_toFinset]
  repeat' apply And.intro
  all_goals exact List.mem_map_of_mem (by decide)

/-- A buffer the stretch does not write is the same after it as before. -/
theorem keepH0 (c : Dev nD) (b : Ref sig .tc) (hb : b ∉ written0) :
    W1 m ρ c (Proc.devRef .tc b) = W0 m ρ c (Proc.devRef .tc b) :=
  StableHlo.after_of_writes_sub hostOps0 _ (writes0 (F := F)) hb

/-- The result buffers of the host stretch `hostOps1`. -/
def written1 : List (Ref sig .tc) := [main_c_5, main_v30, main_v31, main_c_6, main_v32, main_v33, main_v34, main_v35, main_v36]

/-- Every operation of the stretch writes one of them. -/
theorem writes1 : (hostOps1 : List (HloOp τ sig (Elt F))).Forall fun op =>
    op.writes ⊆ ((written1.map (Proc.devRef (τ := τ) .tc)).toFinset) := by
  simp only [hostOps1, List.Forall, StableHlo.nullary_writes, StableHlo.unary_writes, StableHlo.binary_writes,
    StableHlo.ternary_writes, StableHlo.quaternary_writes, StableHlo.reshape_writes, Finset.singleton_subset_iff, List.mem_toFinset]
  repeat' apply And.intro
  all_goals exact List.mem_map_of_mem (by decide)

/-- A buffer the stretch does not write is the same after it as before. -/
theorem keepH1 (c : Dev nD) (b : Ref sig .tc) (hb : b ∉ written1) :
    W3 m ρ c (Proc.devRef .tc b) = W2 m ρ c (Proc.devRef .tc b) :=
  StableHlo.after_of_writes_sub hostOps1 _ (writes1 (F := F)) hb

/-- The result buffers of the host stretch `hostOps2`. -/
def written2 : List (Ref sig .tc) := [main_cst_7, main_v38, main_v39, main_v40, main_v41]

/-- Every operation of the stretch writes one of them. -/
theorem writes2 : (hostOps2 : List (HloOp τ sig (Elt F))).Forall fun op =>
    op.writes ⊆ ((written2.map (Proc.devRef (τ := τ) .tc)).toFinset) := by
  simp only [hostOps2, List.Forall, StableHlo.nullary_writes, StableHlo.unary_writes, StableHlo.binary_writes,
    StableHlo.ternary_writes, StableHlo.quaternary_writes, StableHlo.reshape_writes, Finset.singleton_subset_iff, List.mem_toFinset]
  repeat' apply And.intro
  all_goals exact List.mem_map_of_mem (by decide)

/-- A buffer the stretch does not write is the same after it as before. -/
theorem keepH2 (c : Dev nD) (b : Ref sig .tc) (hb : b ∉ written2) :
    W5 m ρ c (Proc.devRef .tc b) = W4 m ρ c (Proc.devRef .tc b) :=
  StableHlo.after_of_writes_sub hostOps2 _ (writes2 (F := F)) hb

/-- The result buffers of the host stretch `hostOps4`. -/
def written4 : List (Ref sig .tc) := [main_c_8, main_v44, main_v45, main_c_9, main_v46, main_v47, main_v48, main_v49, main_v50]

/-- Every operation of the stretch writes one of them. -/
theorem writes4 : (hostOps4 : List (HloOp τ sig (Elt F))).Forall fun op =>
    op.writes ⊆ ((written4.map (Proc.devRef (τ := τ) .tc)).toFinset) := by
  simp only [hostOps4, List.Forall, StableHlo.nullary_writes, StableHlo.unary_writes, StableHlo.binary_writes,
    StableHlo.ternary_writes, StableHlo.quaternary_writes, StableHlo.reshape_writes, Finset.singleton_subset_iff, List.mem_toFinset]
  repeat' apply And.intro
  all_goals exact List.mem_map_of_mem (by decide)

/-- A buffer the stretch does not write is the same after it as before. -/
theorem keepH4 (c : Dev nD) (b : Ref sig .tc) (hb : b ∉ written4) :
    W8 m ρ c (Proc.devRef .tc b) = W7 m ρ c (Proc.devRef .tc b) :=
  StableHlo.after_of_writes_sub hostOps4 _ (writes4 (F := F)) hb

/-- The result buffers of the host stretch `hostOps5`. -/
def written5 : List (Ref sig .tc) := [main_cst_10, main_v52, main_v53, main_v54, main_v55]

/-- Every operation of the stretch writes one of them. -/
theorem writes5 : (hostOps5 : List (HloOp τ sig (Elt F))).Forall fun op =>
    op.writes ⊆ ((written5.map (Proc.devRef (τ := τ) .tc)).toFinset) := by
  simp only [hostOps5, List.Forall, StableHlo.nullary_writes, StableHlo.unary_writes, StableHlo.binary_writes,
    StableHlo.ternary_writes, StableHlo.quaternary_writes, StableHlo.reshape_writes, Finset.singleton_subset_iff, List.mem_toFinset]
  repeat' apply And.intro
  all_goals exact List.mem_map_of_mem (by decide)

/-- A buffer the stretch does not write is the same after it as before. -/
theorem keepH5 (c : Dev nD) (b : Ref sig .tc) (hb : b ∉ written5) :
    W10 m ρ c (Proc.devRef .tc b) = W9 m ρ c (Proc.devRef .tc b) :=
  StableHlo.after_of_writes_sub hostOps5 _ (writes5 (F := F)) hb

/-- The result buffers of the host stretch `hostOps6`. -/
def written6 : List (Ref sig .tc) := [main_cst_11, main_v57, main_v58, main_v59, main_cst_12, main_v60, main_cst_13, main_v61, main_v62, main_v63, main_cst_14, main_v64, main_v65, main_v66, main_v67, main_v68, main_v69, main_v70, main_v71, main_v72]

/-- Every operation of the stretch writes one of them. -/
theorem writes6 : (hostOps6 : List (HloOp τ sig (Elt F))).Forall fun op =>
    op.writes ⊆ ((written6.map (Proc.devRef (τ := τ) .tc)).toFinset) := by
  simp only [hostOps6, List.Forall, StableHlo.nullary_writes, StableHlo.unary_writes, StableHlo.binary_writes,
    StableHlo.ternary_writes, StableHlo.quaternary_writes, StableHlo.reshape_writes, Finset.singleton_subset_iff, List.mem_toFinset]
  repeat' apply And.intro
  all_goals exact List.mem_map_of_mem (by decide)

/-- A buffer the stretch does not write is the same after it as before. -/
theorem keepH6 (c : Dev nD) (b : Ref sig .tc) (hb : b ∉ written6) :
    W12 m ρ c (Proc.devRef .tc b) = W11 m ρ c (Proc.devRef .tc b) :=
  StableHlo.after_of_writes_sub hostOps6 _ (writes6 (F := F)) hb

/-- Region 1 leaves its input array of normalisation coefficients as it was entered. -/
theorem keepR1_v28 (c : Dev nD) : W4 m ρ c (Proc.devRef .tc main_v28) = W3 m ρ c (Proc.devRef .tc main_v28) :=
  (W4_arr m ρ c 1).trans (((dat1 (V3 m ρ) c).arrAt_in 1 rfl _).trans (A_eq1 (V3 m ρ) c 1))

/-- Region 2 leaves its input array of squared inverse-root degrees as it was entered. -/
theorem keepR2_v12 (c : Dev nD) : W6 m ρ c (Proc.devRef .tc main_v12) = W5 m ρ c (Proc.devRef .tc main_v12) :=
  (W6_arr m ρ c 2).trans (((dat2 (V5 m ρ) c).arrAt_in 2 rfl _).trans (A_eq2 (V5 m ρ) c 2))

/-! ## The values later segments read, traced back to the boundary where they were computed -/

/-- The source endpoints, when the first layer's gather reads them. -/
theorem v1_W2 (c : Dev nD) : W2 m ρ c (Proc.devRef .tc main_v1) = W1 m ρ c (Proc.devRef .tc main_v1) :=
  (W2_of_ne m ρ c main_v1 (by decide))
/-- The source endpoints, when the second layer's gather reads them. -/
theorem v1_W7 (c : Dev nD) : W7 m ρ c (Proc.devRef .tc main_v1) = W1 m ρ c (Proc.devRef .tc main_v1) :=
  (W7_of_ne m ρ c main_v1 (by decide)).trans <| (W6_of_ne m ρ c main_v1 (by decide)).trans <| (keepH2 m ρ c main_v1 (by decide)).trans <| (W4_of_ne m ρ c main_v1 (by decide)).trans <| (keepH1 m ρ c main_v1 (by decide)).trans <| (W2_of_ne m ρ c main_v1 (by decide))
/-- The destination endpoints, when the first layer's scatter reads them. -/
theorem v3_W4 (c : Dev nD) : W4 m ρ c (Proc.devRef .tc main_v3) = W1 m ρ c (Proc.devRef .tc main_v3) :=
  (W4_of_ne m ρ c main_v3 (by decide)).trans <| (keepH1 m ρ c main_v3 (by decide)).trans <| (W2_of_ne m ρ c main_v3 (by decide))
/-- The destination endpoints, when the second layer's scatter reads them. -/
theorem v3_W9 (c : Dev nD) : W9 m ρ c (Proc.devRef .tc main_v3) = W1 m ρ c (Proc.devRef .tc main_v3) :=
  (W9_of_ne m ρ c main_v3 (by decide)).trans <| (keepH4 m ρ c main_v3 (by decide)).trans <| (W7_of_ne m ρ c main_v3 (by decide)).trans <| (W6_of_ne m ρ c main_v3 (by decide)).trans <| (keepH2 m ρ c main_v3 (by decide)).trans <| (W4_of_ne m ρ c main_v3 (by decide)).trans <| (keepH1 m ρ c main_v3 (by decide)).trans <| (W2_of_ne m ρ c main_v3 (by decide))
/-- The coefficient column, at the first scaling region's entry. -/
theorem v28_W3 (c : Dev nD) : W3 m ρ c (Proc.devRef .tc main_v28) = W1 m ρ c (Proc.devRef .tc main_v28) :=
  (keepH1 m ρ c main_v28 (by decide)).trans <| (W2_of_ne m ρ c main_v28 (by decide))
/-- The coefficient column, at the second scaling region's entry. -/
theorem v28_W8 (c : Dev nD) : W8 m ρ c (Proc.devRef .tc main_v28) = W1 m ρ c (Proc.devRef .tc main_v28) :=
  (keepH4 m ρ c main_v28 (by decide)).trans <| (W7_of_ne m ρ c main_v28 (by decide)).trans <| (W6_of_ne m ρ c main_v28 (by decide)).trans <| (keepH2 m ρ c main_v28 (by decide)).trans <| (keepR1_v28 m ρ c).trans <| (keepH1 m ρ c main_v28 (by decide)).trans <| (W2_of_ne m ρ c main_v28 (by decide))
/-- The first layer's projected features, at the first update region's entry. -/
theorem v29_W5 (c : Dev nD) : W5 m ρ c (Proc.devRef .tc main_v29) = W2 m ρ c (Proc.devRef .tc main_v29) :=
  (keepH2 m ρ c main_v29 (by decide)).trans <| (W4_of_ne m ρ c main_v29 (by decide)).trans <| (keepH1 m ρ c main_v29 (by decide))
/-- The squared inverse-root degrees, at the first update region's entry. -/
theorem v12_W5 (c : Dev nD) : W5 m ρ c (Proc.devRef .tc main_v12) = W1 m ρ c (Proc.devRef .tc main_v12) :=
  (keepH2 m ρ c main_v12 (by decide)).trans <| (W4_of_ne m ρ c main_v12 (by decide)).trans <| (keepH1 m ρ c main_v12 (by decide)).trans <| (W2_of_ne m ρ c main_v12 (by decide))
/-- The squared inverse-root degrees, at the second update region's entry. -/
theorem v12_W10 (c : Dev nD) : W10 m ρ c (Proc.devRef .tc main_v12) = W1 m ρ c (Proc.devRef .tc main_v12) :=
  (keepH5 m ρ c main_v12 (by decide)).trans <| (W9_of_ne m ρ c main_v12 (by decide)).trans <| (keepH4 m ρ c main_v12 (by decide)).trans <| (W7_of_ne m ρ c main_v12 (by decide)).trans <| (keepR2_v12 m ρ c).trans <| (v12_W5 m ρ c)
/-- The second layer's projected features, at the second update region's entry. -/
theorem v43_W10 (c : Dev nD) : W10 m ρ c (Proc.devRef .tc main_v43) = W7 m ρ c (Proc.devRef .tc main_v43) :=
  (keepH5 m ρ c main_v43 (by decide)).trans <| (W9_of_ne m ρ c main_v43 (by decide)).trans <| (keepH4 m ρ c main_v43 (by decide))

/-! ## The arguments, where a segment reads them -/

theorem arg0_W1 (c : Dev nD) : W1 m ρ c (Proc.devRef .tc main_arg0) = m ((c : Thread nD τ).loc main_arg0) :=
  (keepH0 m ρ c main_arg0 (by decide))
theorem arg3_W1 (c : Dev nD) : W1 m ρ c (Proc.devRef .tc main_arg3) = m ((c : Thread nD τ).loc main_arg3) :=
  (keepH0 m ρ c main_arg3 (by decide))
theorem arg4_W4 (c : Dev nD) : W4 m ρ c (Proc.devRef .tc main_arg4) = m ((c : Thread nD τ).loc main_arg4) :=
  (W4_of_ne m ρ c main_arg4 (by decide)).trans <| (keepH1 m ρ c main_arg4 (by decide)).trans <| (W2_of_ne m ρ c main_arg4 (by decide)).trans <| (keepH0 m ρ c main_arg4 (by decide))
theorem arg5_W6 (c : Dev nD) : W6 m ρ c (Proc.devRef .tc main_arg5) = m ((c : Thread nD τ).loc main_arg5) :=
  (W6_of_ne m ρ c main_arg5 (by decide)).trans <| (keepH2 m ρ c main_arg5 (by decide)).trans <| (W4_of_ne m ρ c main_arg5 (by decide)).trans <| (keepH1 m ρ c main_arg5 (by decide)).trans <| (W2_of_ne m ρ c main_arg5 (by decide)).trans <| (keepH0 m ρ c main_arg5 (by decide))
theorem arg6_W9 (c : Dev nD) : W9 m ρ c (Proc.devRef .tc main_arg6) = m ((c : Thread nD τ).loc main_arg6) :=
  (keepH5 m ρ c main_arg6 (by decide)).symm.trans <| (W11_of_ne m ρ c main_arg6 (by decide)).symm.trans <|
    (keepH6 m ρ c main_arg6 (by decide)).symm.trans <| W12_main_arg6 m ρ c
theorem arg2_W11 (c : Dev nD) : W11 m ρ c (Proc.devRef .tc main_arg2) = m ((c : Thread nD τ).loc main_arg2) :=
  (keepH6 m ρ c main_arg2 (by decide)).symm.trans <| W12_main_arg2 m ρ c
theorem arg7_W11 (c : Dev nD) : W11 m ρ c (Proc.devRef .tc main_arg7) = m ((c : Thread nD τ).loc main_arg7) :=
  (keepH6 m ρ c main_arg7 (by decide)).symm.trans <| W12_main_arg7 m ρ c
theorem arg8_W11 (c : Dev nD) : W11 m ρ c (Proc.devRef .tc main_arg8) = m ((c : Thread nD τ).loc main_arg8) :=
  (keepH6 m ρ c main_arg8 (by decide)).symm.trans <| W12_main_arg8 m ρ c

end Cert.KernelIdeal.Carry

end
-- ==== Proof.FlowHost.lean ====
/-
  The host operations of the kernel's program, stretch by stretch, against the reference's stages. Between the
  regions the kernel's program runs the very operations the reference runs — the edge endpoints sliced out of the
  edge list, the degree count by scatter-add, its inverse square root, the per-edge coefficients by two gathers and a
  product, each layer's gather of projected features and scatter-add of scaled messages, the mean pooling and the last
  dense layer — so each stretch's result is the reference's stage of the same name, given that the array the
  preceding region left is the reference's stage too.
-/
import proofs.«118910_j31868657336593_1_alg».proof.Proof.Carry
import proofs.«118910_j31868657336593_1_alg».proof.Proof.Gen.ReferenceIdeal.Read
import Idealize.ShloMosaic.Lib.StableHlo.Run
import Idealize.ShloMosaic.Lib.ValueLayout

set_option maxRecDepth 16384

noncomputable section

namespace Cert.Flow

open Cert.KernelIdeal Cert.KernelIdeal.Gen Cert.KernelIdeal.Carry
open Idealize.ShloMosaic Idealize.ShloMosaic.TcCoe Idealize.SL.Sem Idealize.ShloMosaic.StableHlo

variable (m : (ℓ : Loc nD τ sig) → Buf (Elt Ideal) ℓ) (ρ : Dev nD → PrngReg)

/-- The launch contents of the kernel program's nine arguments on core `c`. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)

set_option maxHeartbeats 1000000 in
/-- The source endpoints of the edges. -/
theorem h0_v1 (c : Dev nD) :
    W1 m ρ c (Proc.devRef .tc main_v1) = Cert.ReferenceIdeal.Read.val_main_v1 (F := Ideal) (A1 m c) := by
  show StableHlo.after hostOps0 (W0 m ρ c) (Proc.devRef .tc main_v1) = _
  after_results_simp
  rfl

set_option maxHeartbeats 1000000 in
/-- The destination endpoints of the edges. -/
theorem h0_v3 (c : Dev nD) :
    W1 m ρ c (Proc.devRef .tc main_v3) = Cert.ReferenceIdeal.Read.val_main_v3 (F := Ideal) (A1 m c) := by
  show StableHlo.after hostOps0 (W0 m ρ c) (Proc.devRef .tc main_v3) = _
  after_results_simp
  rfl

set_option maxHeartbeats 1000000 in
/-- The column of squared inverse-root degrees `dinv · dinv`. -/
theorem h0_v12 (c : Dev nD) :
    W1 m ρ c (Proc.devRef .tc main_v12) = Cert.ReferenceIdeal.Read.val_main_v41 (F := Ideal) (A1 m c) := by
  show StableHlo.after hostOps0 (W0 m ρ c) (Proc.devRef .tc main_v12) = _
  after_results_simp
  rfl

set_option maxHeartbeats 1000000 in
/-- The coefficient column `dinv[src] · dinv[dst]`. -/
theorem h0_v28 (c : Dev nD) :
    W1 m ρ c (Proc.devRef .tc main_v28) = Cert.ReferenceIdeal.Read.val_main_v34 (F := Ideal) (A1 m c) := by
  show StableHlo.after hostOps0 (W0 m ρ c) (Proc.devRef .tc main_v28) = _
  after_results_simp
  rfl

set_option maxHeartbeats 1000000 in
/-- The first layer's gather of projected features at the source endpoints. -/
theorem h1_v36 (c : Dev nD)
    (h29 : W2 m ρ c (Proc.devRef .tc main_v29) = Cert.ReferenceIdeal.Read.val_main_v4 (F := Ideal) (A0 m c) (A3 m c)) :
    W3 m ρ c (Proc.devRef .tc main_v36) = Cert.ReferenceIdeal.Read.val_main_v33 (F := Ideal) (A0 m c) (A1 m c) (A3 m c) := by
  show StableHlo.after hostOps1 (W2 m ρ c) (Proc.devRef .tc main_v36) = _
  after_results_simp
  rw [h29, v1_W2 m ρ c, h0_v1 m ρ c]
  rfl

set_option maxHeartbeats 1000000 in
/-- The first layer's scatter-add of scaled messages at the destination endpoints. -/
theorem h2_v40 (c : Dev nD)
    (h37 : W4 m ρ c (Proc.devRef .tc main_v37) = Cert.ReferenceIdeal.Read.val_main_v36 (F := Ideal) (A0 m c) (A1 m c) (A3 m c)) :
    W5 m ρ c (Proc.devRef .tc main_v40) = Cert.ReferenceIdeal.Read.val_main_v39 (F := Ideal) (A0 m c) (A1 m c) (A3 m c) := by
  show StableHlo.after hostOps2 (W4 m ρ c) (Proc.devRef .tc main_v40) = _
  after_results_simp
  rw [h37, v3_W4 m ρ c, h0_v3 m ρ c]
  rfl

set_option maxHeartbeats 1000000 in
/-- The first layer's bias laid out as a `1 × 32` row: entry `(0, j)` is the bias's entry `j`. -/
theorem h2_v41 (c : Dev nD) (j : Fin 32) :
    (W5 m ρ c (Proc.devRef .tc main_v41) : Vec Ideal S1x32 .f32) (ValueIdx.ix2 0 j) = (A4 m c : Vec Ideal S32 .f32) (ValueIdx.ix1 j) := by
  show StableHlo.after hostOps2 (W4 m ρ c) (Proc.devRef .tc main_v41) _ = _
  after_results_simp
  rw [arg4_W4 m ρ c]
  exact ValueIdx.shapeCast_a_1a_apply _ _ 0 j

set_option maxHeartbeats 1000000 in
/-- The second layer's gather of projected features at the source endpoints. -/
theorem h4_v50 (c : Dev nD)
    (h43 : W7 m ρ c (Proc.devRef .tc main_v43) = Cert.ReferenceIdeal.Read.val_main_v49 (F := Ideal) (A0 m c) (A1 m c) (A3 m c) (A4 m c) (A5 m c)) :
    W8 m ρ c (Proc.devRef .tc main_v50) = Cert.ReferenceIdeal.Read.val_main_v78 (F := Ideal) (A0 m c) (A1 m c) (A3 m c) (A4 m c) (A5 m c) := by
  show StableHlo.after hostOps4 (W7 m ρ c) (Proc.devRef .tc main_v50) = _
  after_results_simp
  rw [h43, v1_W7 m ρ c, h0_v1 m ρ c]
  rfl

set_option maxHeartbeats 1000000 in
/-- The second layer's scatter-add of scaled messages at the destination endpoints. -/
theorem h5_v54 (c : Dev nD)
    (h51 : W9 m ρ c (Proc.devRef .tc main_v51) = Cert.ReferenceIdeal.Read.val_main_v81 (F := Ideal) (A0 m c) (A1 m c) (A3 m c) (A4 m c) (A5 m c)) :
    W10 m ρ c (Proc.devRef .tc main_v54) = Cert.ReferenceIdeal.Read.val_main_v84 (F := Ideal) (A0 m c) (A1 m c) (A3 m c) (A4 m c) (A5 m c) := by
  show StableHlo.after hostOps5 (W9 m ρ c) (Proc.devRef .tc main_v54) = _
  after_results_simp
  rw [h51, v3_W9 m ρ c, h0_v3 m ρ c]
  rfl

set_option maxHeartbeats 1000000 in
/-- The second layer's bias laid out as a `1 × 32` row. -/
theorem h5_v55 (c : Dev nD) (j : Fin 32) :
    (W10 m ρ c (Proc.devRef .tc main_v55) : Vec Ideal S1x32 .f32) (ValueIdx.ix2 0 j) = (A6 m c : Vec Ideal S32 .f32) (ValueIdx.ix1 j) := by
  show StableHlo.after hostOps5 (W9 m ρ c) (Proc.devRef .tc main_v55) _ = _
  after_results_simp
  rw [arg6_W9 m ρ c]
  exact ValueIdx.shapeCast_a_1a_apply _ _ 0 j

set_option maxHeartbeats 2000000 in
/-- The mean pooling over each graph's nodes and the last dense layer. -/
theorem h6_v72 (c : Dev nD)
    (h56 : W11 m ρ c (Proc.devRef .tc main_v56) = Cert.ReferenceIdeal.Read.val_main_v93 (F := Ideal) (A0 m c) (A1 m c) (A3 m c) (A4 m c) (A5 m c) (A6 m c)) :
    W12 m ρ c (Proc.devRef .tc main_v72) = Cert.ReferenceIdeal.Read.val_main_v109 (F := Ideal) (A0 m c) (A1 m c) (A2 m c) (A3 m c) (A4 m c) (A5 m c) (A6 m c) (A7 m c) (A8 m c) := by
  show StableHlo.after hostOps6 (W11 m ρ c) (Proc.devRef .tc main_v72) = _
  after_results_simp
  rw [h56, arg2_W11 m ρ c, arg7_W11 m ρ c, arg8_W11 m ρ c]
  rfl

end Cert.Flow

end
-- ==== Proof.Spec.lean ====
/-
  The four array functions the six kernel regions compute, index by index on the extended reals.
  A dense product contracts the shared axis as a plain finite sum; the message scaling multiplies each
  row of an edge-message matrix by that edge's normalisation coefficient; the node update adds the
  self-loop term (the node's squared inverse-root degree times its projected features) and the bias row
  to the aggregated messages and clips the result below at zero.
-/
import Idealize.ShloMosaic.PureOps.Ideal
import Idealize.ShloMosaic.Lib.ValueIdx

noncomputable section

namespace Cert.Spec

open Idealize.ShloMosaic Idealize.ShloMosaic.ValueIdx

/-- Indices of an `a × b` array. -/
abbrev I2 (a b : Nat) : Type := (⟨2, ![a, b]⟩ : Shape).Idx

/-- The row coordinate of an index. -/
abbrev row {a b : Nat} (i : I2 a b) : Fin a := ⟨(i 0).val, (i 0).isLt⟩

/-- The column coordinate of an index. -/
abbrev col {a b : Nat} (i : I2 a b) : Fin b := ⟨(i 1).val, (i 1).isLt⟩

/-- The product of an `n × K` array with a `K × p` array: entry `(r, q)` is `∑ k, x (r, k) · w (k, q)`. -/
def mm {n K p : Nat} (x : I2 n K → EReal) (w : I2 K p → EReal) : I2 n p → EReal :=
  fun i => ∑ k : Fin K, x (ix2 (row i) k) * w (ix2 k (col i))

/-- Every row `r` of `msg` multiplied by the single coefficient `s (r, 0)`. -/
def scale {n d : Nat} (msg : I2 n d → EReal) (s : I2 n 1 → EReal) : I2 n d → EReal :=
  fun i => msg i * s (ix2 (row i) 0)

/-- `max (agg (r, q) + s (r, 0) · xw (r, q) + b (0, q)) 0`: aggregated messages, plus the self-loop term, plus the
    bias, clipped below at the zero word. -/
def combine {n d : Nat} (agg xw : I2 n d → EReal) (s : I2 n 1 → EReal) (b : I2 1 d → EReal) : I2 n d → EReal :=
  fun i => max (agg i + s (ix2 (row i) 0) * xw i + b (ix2 0 (col i))) (Ideal.ofBits .f32 0x00000000#32)

theorem mm_apply {n K p : Nat} (x : I2 n K → EReal) (w : I2 K p → EReal) (i : I2 n p) :
    mm x w i = ∑ k : Fin K, x (ix2 (row i) k) * w (ix2 k (col i)) := rfl

theorem scale_apply {n d : Nat} (msg : I2 n d → EReal) (s : I2 n 1 → EReal) (i : I2 n d) :
    scale msg s i = msg i * s (ix2 (row i) 0) := rfl

theorem combine_apply {n d : Nat} (agg xw : I2 n d → EReal) (s : I2 n 1 → EReal) (b : I2 1 d → EReal) (i : I2 n d) :
    combine agg xw s b i = max (agg i + s (ix2 (row i) 0) * xw i + b (ix2 0 (col i))) (Ideal.ofBits .f32 0x00000000#32) := rfl

end Cert.Spec

end
-- ==== Proof.RefStages.lean ====
import proofs.«118910_j31868657336593_1_alg».proof.Defs
import proofs.«118910_j31868657336593_1_alg».proof.Proof.Gen.ReferenceIdeal.Run
import proofs.«118910_j31868657336593_1_alg».proof.Proof.Gen.ReferenceIdeal.Read
import proofs.«118910_j31868657336593_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stages

open Idealize.ShloMosaic Idealize.ShloMosaic.TcCoe Idealize.SL.Sem Cert.ReferenceIdeal Cert.ReferenceIdeal.Gen
open Idealize.ShloMosaic.ValueIdx

/-- The generated left index of the first product is the row of `i` paired with `k`. -/
theorem lidx4_eq (i : S100000x32.Idx) (k : Fin 3) :
    Cert.ReferenceIdeal.Read.lidx_main_v4 i k = ix2 (Cert.Spec.row i) k :=
  funext fun a => Fin.ext (by match a with | ⟨0, _⟩ => rfl | ⟨1, _⟩ => rfl)

/-- The generated right index of the first product is `k` paired with the column of `i`. -/
theorem ridx4_eq (i : S100000x32.Idx) (k : Fin 3) :
    Cert.ReferenceIdeal.Read.ridx_main_v4 i k = ix2 k (Cert.Spec.col i) :=
  funext fun a => Fin.ext (by match a with | ⟨0, _⟩ => rfl | ⟨1, _⟩ => rfl)

/-- The host's product of the node features with the first layer's weights is the plain sum over the contracted axis. -/
theorem dot3_eq (x : FVec Ideal S100000x3 .f32) (w : FVec Ideal S3x32 .f32) :
    Host.dotGeneral (F := Ideal) dot_S100000x3_S3x32_S100000x32_1_0_0_1_n_n none x w = Cert.Spec.mm x w := by
  funext i
  have h := Cert.ReferenceIdeal.Read.val_main_v4_apply x w i
  unfold Cert.ReferenceIdeal.Read.val_main_v4 at h
  rw [h, Cert.Spec.mm_apply]
  refine Finset.sum_congr rfl fun k _ => ?_
  rw [lidx4_eq, ridx4_eq]

/-- The `32 × 32` product of the host, read at an index, is the sum over the contracted axis. -/
theorem dot32_apply (x : FVec Ideal S100000x32 .f32) (w : FVec Ideal S32x32 .f32) (i : S100000x32.Idx) :
    Host.dotGeneral (F := Ideal) dot_S100000x32_S32x32_S100000x32_1_0_0_1_n_n none x w i
      = ∑ k : Fin 32, x (ix2 (Cert.Spec.row i) k) * w (ix2 k (Cert.Spec.col i)) := by
  simp only [Host.dotGeneral]
  rw [Ideal.dotGeneral_apply, ← Equiv.sum_comp (ValueIdx.contrEquiv1 dot_S100000x32_S32x32_S100000x32_1_0_0_1_n_n 32 rfl rfl).symm]
  refine Finset.sum_congr rfl fun k _ => ?_
  have hk := ValueIdx.contrEquiv1_symm_val dot_S100000x32_S32x32_S100000x32_1_0_0_1_n_n 32 rfl rfl k
  have el : dot_S100000x32_S32x32_S100000x32_1_0_0_1_n_n.lhsIdx i ((ValueIdx.contrEquiv1 dot_S100000x32_S32x32_S100000x32_1_0_0_1_n_n 32 rfl rfl).symm k) = ix2 (Cert.Spec.row i) k := funext fun a => Fin.ext (by
    match a with
    | ⟨0, _⟩ => exact Cert.ReferenceIdeal.Read.lhs_main_v49_0 _ _
    | ⟨1, _⟩ => exact (Cert.ReferenceIdeal.Read.lhs_main_v49_1 _ _).trans hk)
  have er : dot_S100000x32_S32x32_S100000x32_1_0_0_1_n_n.rhsIdx i ((ValueIdx.contrEquiv1 dot_S100000x32_S32x32_S100000x32_1_0_0_1_n_n 32 rfl rfl).symm k) = ix2 k (Cert.Spec.col i) := funext fun a => Fin.ext (by
    match a with
    | ⟨0, _⟩ => exact (Cert.ReferenceIdeal.Read.rhs_main_v49_0 _ _).trans hk
    | ⟨1, _⟩ => exact Cert.ReferenceIdeal.Read.rhs_main_v49_1 _ _)
  rw [el, er]

/-- The same for the second layer's `32 × 32` weights. -/
theorem dot32_eq (x : FVec Ideal S100000x32 .f32) (w : FVec Ideal S32x32 .f32) :
    Host.dotGeneral (F := Ideal) dot_S100000x32_S32x32_S100000x32_1_0_0_1_n_n none x w = Cert.Spec.mm x w := by
  funext i
  rw [dot32_apply, Cert.Spec.mm_apply]

/-- A column of `1600000` coefficients broadcast along the feature axis, read at `i`, is the coefficient of the row of `i`. -/
theorem bcastE_apply {α : Type} (N : S1600000x1.Idx → α) (i : S1600000x32.Idx) :
    broadcastInDim S1600000x32 ![0, 1] bcast_S1600000x1_S1600000x32_0_1 N i = N (ix2 (Cert.Spec.row i) 0) :=
  broadcastInDim_apply _ bcast_S1600000x1_S1600000x32_0_1 N i (ix2 (Cert.Spec.row i) 0) (fun a => match a with
    | ⟨0, _⟩ => by show (i 0).val = if (1600000 : Nat) = 1 then 0 else (i 0).val; rw [if_neg (by decide)]
    | ⟨1, _⟩ => by show 0 = if (1 : Nat) = 1 then 0 else (i 1).val; rw [if_pos rfl])

/-- Multiplying the gathered messages by the coefficient column broadcast along the feature axis scales each row. -/
theorem scale_eq (M : FVec Ideal S1600000x32 .f32) (N : FVec Ideal S1600000x1 .f32) :
    mulf (F := Ideal) M (broadcastInDim S1600000x32 ![0, 1] bcast_S1600000x1_S1600000x32_0_1 N) = Cert.Spec.scale M N := by
  funext i
  rw [mulf_apply, bcastE_apply, Cert.Spec.scale_apply]

/-- A column of `100000` coefficients broadcast along the feature axis, read at `i`, is the coefficient of the row of `i`. -/
theorem bcastN_apply {α : Type} (D : S100000x1.Idx → α) (i : S100000x32.Idx) :
    broadcastInDim S100000x32 ![0, 1] bcast_S100000x1_S100000x32_0_1 D i = D (ix2 (Cert.Spec.row i) 0) :=
  broadcastInDim_apply _ bcast_S100000x1_S100000x32_0_1 D i (ix2 (Cert.Spec.row i) 0) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A row of `32` entries broadcast along the node axis, read at `i`, is the entry of the column of `i`. -/
theorem bcastRow_apply {α : Type} (y : S1x32.Idx → α) (i : S100000x32.Idx) :
    broadcastInDim S100000x32 ![0, 1] bcast_S1x32_S100000x32_0_1 y i = y (ix2 0 (Cert.Spec.col i)) :=
  broadcastInDim_apply _ bcast_S1x32_S100000x32_0_1 y i (ix2 0 (Cert.Spec.col i)) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

/-- A vector of `32` entries laid out as a `1 × 32` row, read at `(0, j)`, is its entry `j`. -/
theorem bcastVec_apply {α : Type} (b : S32.Idx → α) (j : Fin 32) :
    broadcastInDim S1x32 ![1] bcast_S32_S1x32_1 b (ix2 0 j) = b (ix1 j) :=
  broadcastInDim_apply _ bcast_S32_S1x32_1 b (ix2 0 j) (ix1 j) (fun a => match a with
    | ⟨0, _⟩ => by show j.val = if (32 : Nat) = 1 then 0 else j.val; rw [if_neg (by decide)])

/-- A scalar broadcast to the `100000 × 32` array, read anywhere, is the scalar. -/
theorem bcastScalar_apply {α : Type} (c : S_.Idx → α) (i : S100000x32.Idx) :
    broadcastInDim S100000x32 ![] bcast_S_S100000x32 c i = c (fun a => a.elim0) :=
  broadcastInDim_apply _ bcast_S_S100000x32 c i (fun a => a.elim0) (fun a => a.elim0)

/-- The reference's node update — aggregated messages plus features times the broadcast squared inverse-root degree,
    plus the broadcast bias, clipped at zero — is `Spec.combine`, for any `1 × 32` array `b1` holding the bias `b`. -/
theorem combine_eq (A X : FVec Ideal S100000x32 .f32) (D : FVec Ideal S100000x1 .f32) (b : FVec Ideal S32 .f32)
    (b1 : FVec Ideal S1x32 .f32) (hb : ∀ j : Fin 32, b1 (ix2 0 j) = b (ix1 j)) :
    maximumf (F := Ideal) (addf (addf A (mulf X (broadcastInDim S100000x32 ![0, 1] bcast_S100000x1_S100000x32_0_1 D)))
        (broadcastInDim S100000x32 ![0, 1] bcast_S1x32_S100000x32_0_1 (broadcastInDim S1x32 ![1] bcast_S32_S1x32_1 b)))
      (broadcastInDim S100000x32 ![] bcast_S_S100000x32 (constant (F := Ideal) S_ .f32 0x00000000#32))
    = Cert.Spec.combine A X D b1 := by
  funext i
  rw [maximumf_apply, addf_apply, addf_apply, mulf_apply, bcastN_apply, bcastRow_apply, bcastVec_apply,
    bcastScalar_apply, constant_apply, Cert.Spec.combine_apply, hb, mul_comm (X i)]

end Cert.ReferenceIdeal.Stages

end
-- ==== Proof.Region0.lean ====
import proofs.«118910_j31868657336593_1_alg».proof.Proof.Gen.KernelIdeal.Frame
import proofs.«118910_j31868657336593_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## The block product at an index -/

/-- The left operand's row coordinate of the block product is the output's row. -/
theorem lhs_blk0_0 (i : S10000x32.Idx) (q : dot_S10000x3_S3x32_S10000x32_1_0_0_1_n_n.contr.Idx) :
    (dot_S10000x3_S3x32_S10000x32_1_0_0_1_n_n.lhsIdx i q 0).val = (i 0).val := by
  unfold DotDims.lhsIdx
  rw [dif_neg (show ¬(0 : Fin S10000x3.rank) ∈ dot_S10000x3_S3x32_S10000x32_1_0_0_1_n_n.lhsBatch by decide), dif_pos (show (0 : Fin S10000x3.rank) ∈ dot_S10000x3_S3x32_S10000x32_1_0_0_1_n_n.lhsNonContracting by decide)]
  rfl
/-- The left operand's column coordinate is the contraction index. -/
theorem lhs_blk0_1 (i : S10000x32.Idx) (q : dot_S10000x3_S3x32_S10000x32_1_0_0_1_n_n.contr.Idx) :
    (dot_S10000x3_S3x32_S10000x32_1_0_0_1_n_n.lhsIdx i q 1).val = (q ⟨0, by decide⟩).val :=
  dot_S10000x3_S3x32_S10000x32_1_0_0_1_n_n.lhsIdx_val_of_single rfl i q
/-- The right operand's row coordinate is the contraction index. -/
theorem rhs_blk0_0 (i : S10000x32.Idx) (q : dot_S10000x3_S3x32_S10000x32_1_0_0_1_n_n.contr.Idx) :
    (dot_S10000x3_S3x32_S10000x32_1_0_0_1_n_n.rhsIdx i q 0).val = (q ⟨0, by decide⟩).val :=
  dot_S10000x3_S3x32_S10000x32_1_0_0_1_n_n.rhsIdx_val_of_single rfl i q
/-- The right operand's column coordinate is the output's column. -/
theorem rhs_blk0_1 (i : S10000x32.Idx) (q : dot_S10000x3_S3x32_S10000x32_1_0_0_1_n_n.contr.Idx) :
    (dot_S10000x3_S3x32_S10000x32_1_0_0_1_n_n.rhsIdx i q 1).val = (i 1).val := by
  unfold DotDims.rhsIdx
  rw [dif_neg (show ¬(1 : Fin S3x32.rank) ∈ dot_S10000x3_S3x32_S10000x32_1_0_0_1_n_n.rhsBatch by decide), dif_pos (show (1 : Fin S3x32.rank) ∈ dot_S10000x3_S3x32_S10000x32_1_0_0_1_n_n.rhsNonContracting by decide)]
  rfl

/-- The body's payload on a pair of blocks is their product: entry `j` is the sum over the shared axis of the
    left block's row `j 0` against the right block's column `j 1` (the narrowing of the operands is the identity
    on the extended reals, and the accumulator is the zero splat). -/
theorem pay0_apply (x0 : Vec Ideal S10000x3 .f32) (x1 : Vec Ideal S3x32 .f32) (j : S10000x32.Idx) :
    k0_pay1 (F := Ideal) x0 x1 j = Cert.Spec.mm x0 x1 j := by
  unfold k0_pay1
  rw [Cert.Spec.mm_apply]
  show FloatOps.matmul dot_S10000x3_S3x32_S10000x32_1_0_0_1_n_n none _ _ (constant S10000x32 .f32 0x00000000#32) j = _
  rw [Ideal.matmul_constant_zero_apply, ← Equiv.sum_comp (ValueIdx.contrEquiv1 dot_S10000x3_S3x32_S10000x32_1_0_0_1_n_n 3 rfl rfl).symm]
  refine Finset.sum_congr rfl fun k _ => ?_
  have hk := ValueIdx.contrEquiv1_symm_val dot_S10000x3_S3x32_S10000x32_1_0_0_1_n_n 3 rfl rfl k
  have el : dot_S10000x3_S3x32_S10000x32_1_0_0_1_n_n.lhsIdx j ((ValueIdx.contrEquiv1 dot_S10000x3_S3x32_S10000x32_1_0_0_1_n_n 3 rfl rfl).symm k) = ValueIdx.ix2 (Cert.Spec.row j) k := funext fun a => Fin.ext (by
    match a with
    | ⟨0, _⟩ => exact lhs_blk0_0 _ _
    | ⟨1, _⟩ => exact (lhs_blk0_1 _ _).trans hk)
  have er : dot_S10000x3_S3x32_S10000x32_1_0_0_1_n_n.rhsIdx j ((ValueIdx.contrEquiv1 dot_S10000x3_S3x32_S10000x32_1_0_0_1_n_n 3 rfl rfl).symm k) = ValueIdx.ix2 k (Cert.Spec.col j) := funext fun a => Fin.ext (by
    match a with
    | ⟨0, _⟩ => exact (rhs_blk0_0 _ _).trans hk
    | ⟨1, _⟩ => exact rhs_blk0_1 _ _)
  rw [ValueIdx.truncf_apply, ValueIdx.truncf_apply, el, er]

/-! ## From the blocks to the array -/

theorem offsets_zero0 : (![0, 0] : Fin 2 → Nat) = fun _ => 0 := funext fun a => by fin_cases a <;> rfl

/-- The product read at index `j` of a pair of blocks is the product of the whole arrays at index `i`, when row
    `j 0` of the left block is row `i 0` of the left array and column `j 1` of the right block is column `i 1`
    of the right array. -/
theorem mm_of_rows_cols {n n' K p p' : Nat} (x : Cert.Spec.I2 n K → EReal) (w : Cert.Spec.I2 K p → EReal)
    (x' : Cert.Spec.I2 n' K → EReal) (w' : Cert.Spec.I2 K p' → EReal) (j : Cert.Spec.I2 n p) (i : Cert.Spec.I2 n' p')
    (hx : ∀ k : Fin K, x (ValueIdx.ix2 (Cert.Spec.row j) k) = x' (ValueIdx.ix2 (Cert.Spec.row i) k))
    (hw : ∀ k : Fin K, w (ValueIdx.ix2 k (Cert.Spec.col j)) = w' (ValueIdx.ix2 k (Cert.Spec.col i))) :
    Cert.Spec.mm x w j = Cert.Spec.mm x' w' i := by
  rw [Cert.Spec.mm_apply, Cert.Spec.mm_apply]
  exact Finset.sum_congr rfl fun k _ => by rw [hx k, hw k]

/-- The printed index maps, decided over the grid: the left operand's and the result's block row is the grid point,
    their block column is 0, and the right operand stays at block (0, 0). -/
theorem index_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the two argument arrays as the region finds them. -/
theorem flushed0_eq (c : Dev nD) (t : Fin cfg0.N) :
    (dat0 (F := Ideal) V c).flushed 2 t
      = ((cfg0.win 2).blk t).view.read (Elt Ideal) (Cert.Spec.mm (V c main_arg0) (V c main_arg3)) := by
  show (cfg0.win 2).cut (grid0.coords t) ((dat0 V c).after 2 t) = _
  rw [after0_2]
  unfold out0_2
  rw [View.canon_unit_zero offsets_zero0]
  simp only [View.ld_unit_zero (S := S10000x3) offsets_zero0, View.ld_unit_zero (S := S3x32) offsets_zero0]
  obtain ⟨e0, e1, e2, e3, e4, e5⟩ := index_facts0 t
  funext j
  refine (pay0_apply (iblk0 V c 0 t) (iblk0 V c 1 t) j).trans ?_
  show _ = Cert.Spec.mm (V c main_arg0) (V c main_arg3) (((cfg0.win 2).blk t).view.emb j)
  refine mm_of_rows_cols _ _ _ _ j _ (fun k => ?_) (fun k => ?_)
  · show V c main_arg0 (((cfg0.win 0).blk t).view.emb (ValueIdx.ix2 (Cert.Spec.row j) k)) = _
    refine congrArg (V c main_arg0) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 3 + 1 * k.val = k.val; omega
  · show V c main_arg3 (((cfg0.win 1).blk t).view.emb (ValueIdx.ix2 k (Cert.Spec.col j))) = _
    refine congrArg (V c main_arg3) ?_
    funext a; apply Fin.ext
    match a with
    | ⟨0, _⟩ => show win0_1.index t (0 : Fin 2) * 3 + 1 * k.val = k.val; omega
    | ⟨1, _⟩ => show win0_1.index t (1 : Fin 2) * 32 + 1 * (j 1).val = win0_2.index t (1 : Fin 2) * 32 + 1 * (j 1).val; omega

/-- An index of the result array is in point `t`'s block iff each coordinate is in the block's range on its axis. -/
theorem mem_blk0 (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v29).slice (win0_2.rect t)).set ↔ _
  rw [View.set_slice_whole, Rect.mem_set_unit]
  exact Iff.rfl

/-- The ten row blocks tile the result array: row `r` is in the block of point `r / 10000`. -/
theorem cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : (i 0).val / 10000 < cfg0.N := by show (i 0).val / 10000 < 10; omega
  obtain ⟨e0, e1, e2, e3, e4, e5⟩ := index_facts0 ⟨(i 0).val / 10000, hN⟩
  refine ⟨⟨(i 0).val / 10000, hN⟩, flush0_2 _, ?_⟩
  rw [mem_blk0]
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; rw [e4]; show (i 0).val / 10000 * 10000 ≤ (i 0).val ∧ (i 0).val < (i 0).val / 10000 * 10000 + 10000; omega
  | ⟨1, _⟩ => show win0_2.index ⟨(i 0).val / 10000, hN⟩ (1 : Fin 2) * 32 ≤ (i 1).val ∧ (i 1).val < win0_2.index ⟨(i 0).val / 10000, hN⟩ (1 : Fin 2) * 32 + 32; rw [e5]; omega

/-- The result array after the run is the product of the two argument arrays. -/
theorem final0 (c : Dev nD) :
    (dat0 (F := Ideal) V c).arrAt 2 cfg0.N = Cert.Spec.mm (V c main_arg0) (V c main_arg3) := by
  exact (dat0 (F := Ideal) V c).arrAt_eq_of_cover 2 (Cert.Spec.mm (V c main_arg0) (V c main_arg3))
    (fun t _ => flushed0_eq V c t) cover0

end Cert.KernelIdeal.Regions

end
-- ==== Proof.Region1.lean ====
import proofs.«118910_j31868657336593_1_alg».proof.Proof.Gen.KernelIdeal.Frame
import proofs.«118910_j31868657336593_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The body's one load per window and its one store start at the block's origin. -/
theorem zero_offsets1 : (![0, 0] : Fin 2 → Nat) = fun _ => 0 := funext fun a => by fin_cases a <;> rfl

/-- The stored value at `(p, q)` is the message entry `(p, q)` times the coefficient `(p, 0)`: the coefficient column is
    broadcast along the feature axis. -/
theorem pay1_apply (x0 : Vec Ideal S8000x32 .f32) (x1 : Vec Ideal S8000x1 .f32) (j : S8000x32.Idx) :
    k1_pay1 x0 x1 j = x0 j * x1 (ValueIdx.ix2 (⟨(j 0).val, (j 0).isLt⟩ : Fin 8000) (0 : Fin 1)) := by
  unfold k1_pay1
  show shapeCast S8000x32 x0 _ j * broadcastTo S8000x32 (shapeCast S8000x1 x1 _) _ j = _
  rw [shapeCast_self, shapeCast_self]
  rw [broadcastTo_apply x1 _ j (ValueIdx.ix2 (⟨(j 0).val, (j 0).isLt⟩ : Fin 8000) (0 : Fin 1)) ?_]
  intro a
  match a with
  | ⟨0, _⟩ => rfl
  | ⟨1, _⟩ => rfl

/-- At grid point `t` every window sits at block row `t`, block column `0`. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- What grid point `t` writes back is block `t` of the row-scaled array. -/
theorem flushed1_eq (c : Dev nD) (t : Fin cfg1.N) :
    (dat1 (F := Ideal) V c).flushed 2 t
      = ((cfg1.win 2).blk t).view.read (Elt Ideal) (Cert.Spec.scale (V c main_v36) (V c main_v28)) := by
  show (cfg1.win 2).cut (grid1.coords t) ((dat1 (F := Ideal) V c).after 2 t) = _
  rw [after1_2]
  unfold out1_2
  rw [View.canon_unit_zero zero_offsets1]
  simp only [View.ld_unit_zero (S := S8000x32) zero_offsets1, View.ld_unit_zero (S := S8000x1) zero_offsets1]
  obtain ⟨e0, e1, e2, e3, e4, e5⟩ := idx_facts1 t
  funext j
  show k1_pay1 (iblk1 V c 0 t) (iblk1 V c 1 t) j = _
  refine (pay1_apply (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 32 + 1 * (j 1).val = win1_2.index t (1 : Fin 2) * 32 + 1 * (j 1).val; omega
  have h1 : ((cfg1.win 1).blk t).view.emb (ValueIdx.ix2 (⟨(j 0).val, (j 0).isLt⟩ : Fin 8000) (0 : Fin 1))
      = ValueIdx.ix2 (Cert.Spec.row (((cfg1.win 2).blk t).view.emb j)) 0 := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega
  have a0 : (iblk1 V c 0 t j : EReal) = V c main_v36 (((cfg1.win 2).blk t).view.emb j) := by
    show V c main_v36 (((cfg1.win 0).blk t).view.emb j) = _
    rw [h0]
  have a1 : (iblk1 V c 1 t (ValueIdx.ix2 (⟨(j 0).val, (j 0).isLt⟩ : Fin 8000) (0 : Fin 1)) : EReal)
      = V c main_v28 (ValueIdx.ix2 (Cert.Spec.row (((cfg1.win 2).blk t).view.emb j)) 0) := by
    show V c main_v28 (((cfg1.win 1).blk t).view.emb (ValueIdx.ix2 (⟨(j 0).val, (j 0).isLt⟩ : Fin 8000) (0 : Fin 1))) = _
    rw [h1]
  exact congrArg₂ (fun a b : EReal => a * b) a0 a1

/-- An index of the array is in point `t`'s block iff each coordinate is in the block's range on its axis. -/
theorem mem_blk1 (t : Fin cfg1.N) (i : S1600000x32.Idx) :
    i ∈ ((cfg1.win 2).blk t).view.set ↔ ∀ a : Fin 2, win1_2.index t a * S8000x32.size a ≤ (i a).val ∧ (i a).val < win1_2.index t a * S8000x32.size a + S8000x32.size a := by
  show i ∈ ((View.whole main_v37).slice (win1_2.rect t)).set ↔ _
  rw [View.set_slice_whole, Rect.mem_set_unit]
  exact Iff.rfl

/-- Every index lies in the block of the point numbered by its row divided by the block height. -/
theorem covered1 (i : S1600000x32.Idx) :
    ∃ t : Fin cfg1.N, (cfg1.win 2).flush t = true ∧ i ∈ ((cfg1.win 2).blk t).view.set := by
  have hi0 : (i 0).val < 1600000 := (i 0).isLt
  have hi1 : (i 1).val < 32 := (i 1).isLt
  let t : Fin cfg1.N := ⟨(i 0).val / 8000, by show _ < 200; omega⟩
  obtain ⟨e0, e1, e2, e3, e4, e5⟩ := idx_facts1 t
  have ht : t.val = (i 0).val / 8000 := rfl
  refine ⟨t, flush1_2 t, ?_⟩
  rw [mem_blk1]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 32 ≤ (i 1).val ∧ (i 1).val < win1_2.index t (1 : Fin 2) * 32 + 32; omega

theorem final1 (c : Dev nD) :
    (dat1 (F := Ideal) V c).arrAt 2 cfg1.N = Cert.Spec.scale (V c main_v36) (V c main_v28) := by
  exact (dat1 (F := Ideal) V c).arrAt_eq_of_cover 2 (Cert.Spec.scale (V c main_v36) (V c main_v28))
    (fun t _ => flushed1_eq V c t) covered1

end Cert.KernelIdeal.Regions

end
-- ==== Proof.Region2.lean ====
import proofs.«118910_j31868657336593_1_alg».proof.Proof.Gen.KernelIdeal.Frame
import proofs.«118910_j31868657336593_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

open Idealize.ShloMosaic.ValueIdx

/-- The zero offset of a whole-buffer rectangle. -/
theorem zero_offset_region2 : (![0, 0] : Fin 2 → Nat) = fun _ => 0 := funext fun a => by fin_cases a <;> rfl

/-- The body's payload at row `p`, column `q` of its block: the aggregated message plus the row's coefficient times the
    projected feature plus the column's bias, clipped below at zero. -/
theorem combine_block2_apply (x0 : Vec Ideal S5000x32 .f32) (x2 : Vec Ideal S5000x1 .f32) (x1 : Vec Ideal S5000x32 .f32)
    (x3 : Vec Ideal S1x32 .f32) (p : Fin 5000) (q : Fin 32) :
    k2_pay1 x0 x2 x1 x3 (ix2 p q)
      = max (x0 (ix2 p q) + x2 (ix2 p 0) * x1 (ix2 p q) + x3 (ix2 0 q)) (Ideal.ofBits .f32 0x00000000#32) := by
  unfold k2_pay1
  simp only [shapeCast_self]
  rw [maximumf_apply, addf_apply, addf_apply, mulf_apply, broadcast_apply]
  rw [broadcastTo_1b_ab_apply x3 _ p q]
  rw [broadcastTo_apply x2 _ (ix2 p q) (ix2 p 0) (fun ax => by
    match ax with
    | ⟨0, _⟩ => rfl
    | ⟨1, _⟩ => rfl)]
  rfl

/-- The same at any index of the block. -/
theorem combine_block2 (x0 : Vec Ideal S5000x32 .f32) (x2 : Vec Ideal S5000x1 .f32) (x1 : Vec Ideal S5000x32 .f32)
    (x3 : Vec Ideal S1x32 .f32) (j : S5000x32.Idx) :
    k2_pay1 x0 x2 x1 x3 j
      = max (x0 j + x2 (ix2 (Cert.Spec.row j) 0) * x1 j + x3 (ix2 0 (Cert.Spec.col j))) (Ideal.ofBits .f32 0x00000000#32) := by
  obtain ⟨p, q, rfl⟩ : ∃ (p : Fin 5000) (q : Fin 32), j = ix2 p q := ⟨j 0, j 1, eq_ix2 j⟩
  exact combine_block2_apply x0 x2 x1 x3 p q

/-- The printed index maps over the grid: the three row-blocked inputs move with the output window, the bias window and
    every column block stay at zero. -/
theorem index_facts2 : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = win2_4.index t (0 : Fin 2)
    ∧ win2_2.index t (1 : Fin 2) = 0
    ∧ win2_3.index t (0 : Fin 2) = 0
    ∧ win2_3.index t (1 : Fin 2) = 0
    ∧ win2_4.index t (0 : Fin 2) ≤ 19
    ∧ win2_4.index t (1 : Fin 2) = 0 :=
  (by decide +kernel : ∀ t : Fin grid2.N, _)

/-- Every row block of the output is some point's. -/
theorem index_onto2 : ∀ (q0 : Fin 20), ∃ t : Fin cfg2.N, win2_4.index t = ![q0.val, 0] :=
  (by decide +kernel : ∀ (q0 : Fin 20), ∃ t : Fin grid2.N, win2_4.index t = ![q0.val, 0])

set_option maxHeartbeats 400000 in
/-- What point `t` writes back is block `t` of the node update of the four input arrays as the region finds them. -/
theorem flushed2_eq (c : Dev nD) (t : Fin cfg2.N) :
    (dat2 (F := Ideal) V c).flushed 4 t = ((cfg2.win 4).blk t).view.read (Elt Ideal)
      (Cert.Spec.combine (V c main_v40) (V c main_v29) (V c main_v12) (V c main_v41)) := by
  show (cfg2.win 4).cut (grid2.coords t) ((dat2 V c).after 4 t) = _
  rw [after2_4]
  unfold out2_4
  rw [View.canon_unit_zero zero_offset_region2]
  simp only [View.ld_unit_zero (S := S5000x32) zero_offset_region2, View.ld_unit_zero (S := S5000x1) zero_offset_region2,
    View.ld_unit_zero (S := S1x32) zero_offset_region2]
  obtain ⟨e0, e1, e2, e3, e4, e5, e6, e7, e8, e9⟩ := index_facts2 t
  funext j
  refine (combine_block2 _ _ _ _ j).trans ?_
  have h0 : ((cfg2.win 0).blk t).view.emb j = ((cfg2.win 4).blk t).view.emb j := by
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 32 + 1 * (j 1).val = win2_4.index t (1 : Fin 2) * 32 + 1 * (j 1).val; omega
  have h1 : ((cfg2.win 1).blk t).view.emb j = ((cfg2.win 4).blk t).view.emb j := by
    funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 32 + 1 * (j 1).val = win2_4.index t (1 : Fin 2) * 32 + 1 * (j 1).val; omega
  have h2 : ((cfg2.win 2).blk t).view.emb (ix2 (Cert.Spec.row j) 0) = ix2 (Cert.Spec.row (((cfg2.win 4).blk t).view.emb j)) 0 := by
    funext a; apply Fin.ext
    match a with
    | ⟨0, _⟩ => show win2_2.index t (0 : Fin 2) * 5000 + 1 * (j 0).val = win2_4.index t (0 : Fin 2) * 5000 + 1 * (j 0).val; omega
    | ⟨1, _⟩ => show win2_2.index t (1 : Fin 2) * 1 + 1 * 0 = 0; omega
  have h3 : ((cfg2.win 3).blk t).view.emb (ix2 0 (Cert.Spec.col j)) = ix2 0 (Cert.Spec.col (((cfg2.win 4).blk t).view.emb j)) := by
    funext a; apply Fin.ext
    match a with
    | ⟨0, _⟩ => show win2_3.index t (0 : Fin 2) * 1 + 1 * 0 = 0; omega
    | ⟨1, _⟩ => show win2_3.index t (1 : Fin 2) * 32 + 1 * (j 1).val = win2_4.index t (1 : Fin 2) * 32 + 1 * (j 1).val; omega
  have key : ∀ (A0 A1 : S100000x32.Idx → EReal) (A2 : S100000x1.Idx → EReal) (A3 : S1x32.Idx → EReal),
      max (A0 (((cfg2.win 0).blk t).view.emb j)
          + A2 (((cfg2.win 2).blk t).view.emb (ix2 (Cert.Spec.row j) 0)) * A1 (((cfg2.win 1).blk t).view.emb j)
          + A3 (((cfg2.win 3).blk t).view.emb (ix2 0 (Cert.Spec.col j)))) (Ideal.ofBits .f32 0x00000000#32)
        = Cert.Spec.combine A0 A1 A2 A3 (((cfg2.win 4).blk t).view.emb j) := by
    intro A0 A1 A2 A3
    rw [Cert.Spec.combine_apply, h0, h1, h2, h3]
  exact key (V c main_v40) (V c main_v29) (V c main_v12) (V c main_v41)

/-- An index of the array is in point `t`'s block iff each coordinate is in the block's range on its axis. -/
theorem mem_block2 (t : Fin cfg2.N) (i : S100000x32.Idx) :
    i ∈ ((cfg2.win 4).blk t).view.set ↔ ∀ a : Fin 2, win2_4.index t a * S5000x32.size a ≤ (i a).val ∧ (i a).val < win2_4.index t a * S5000x32.size a + S5000x32.size a := by
  show i ∈ ((View.whole main_v42).slice (win2_4.rect t)).set ↔ _
  rw [View.set_slice_whole, Rect.mem_set_unit]
  exact Iff.rfl

/-- Every index of the array is in the block of the point its row falls in: row `r` in block `r / 5000`. -/
theorem covered2 (i : S100000x32.Idx) :
    ∃ t : Fin cfg2.N, (cfg2.win 4).flush t = true ∧ i ∈ ((cfg2.win 4).blk t).view.set := by
  have hi0 : (i 0).val < 100000 := (i 0).isLt
  have hi1 : (i 1).val < 32 := (i 1).isLt
  obtain ⟨t, ht⟩ := index_onto2 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_block2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 32 ≤ (i 1).val ∧ (i 1).val < win2_4.index t (1 : Fin 2) * 32 + 32; omega

/-- The output array after the run: the node update of the four input arrays as the region finds them. -/
theorem final2 (c : Dev nD) :
    (dat2 (F := Ideal) V c).arrAt 4 cfg2.N = Cert.Spec.combine (V c main_v40) (V c main_v29) (V c main_v12) (V c main_v41) := by
  exact (dat2 (F := Ideal) V c).arrAt_eq_of_cover 4
    (Cert.Spec.combine (V c main_v40) (V c main_v29) (V c main_v12) (V c main_v41))
    (fun t _ => flushed2_eq V c t) covered2

end Cert.KernelIdeal.Regions

end
-- ==== Proof.Region3.lean ====
import proofs.«118910_j31868657336593_1_alg».proof.Proof.Gen.KernelIdeal.Frame
import proofs.«118910_j31868657336593_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## The block product at an index -/

/-- The left operand's row coordinate of the block product is the output's row. -/
theorem lhs_blk3_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
/-- The left operand's column coordinate is the contraction index. -/
theorem lhs_blk3_1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
/-- The right operand's row coordinate is the contraction index. -/
theorem rhs_blk3_0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
/-- The right operand's column coordinate is the output's column. -/
theorem rhs_blk3_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The body's payload on a pair of blocks is their product: entry `j` is the sum over the shared axis of the
    left block's row `j 0` against the right block's column `j 1` (the reshape of the left block to its own shape
    and the narrowing of the operands are the identity on the extended reals, and the accumulator is the zero
    splat). -/
theorem pay3_apply (x0 : Vec Ideal S10000x32 .f32) (x1 : Vec Ideal S32x32 .f32) (j : S10000x32.Idx) :
    k3_pay1 (F := Ideal) x0 x1 j = Cert.Spec.mm x0 x1 j := by
  unfold k3_pay1
  rw [Cert.Spec.mm_apply]
  show FloatOps.matmul dot_S10000x32_S32x32_S10000x32_1_0_0_1_n_n none _ _ (constant S10000x32 .f32 0x00000000#32) j = _
  rw [Ideal.matmul_constant_zero_apply, ← Equiv.sum_comp (ValueIdx.contrEquiv1 dot_S10000x32_S32x32_S10000x32_1_0_0_1_n_n 32 rfl rfl).symm]
  refine Finset.sum_congr rfl fun k _ => ?_
  have hk := ValueIdx.contrEquiv1_symm_val dot_S10000x32_S32x32_S10000x32_1_0_0_1_n_n 32 rfl rfl k
  have el : dot_S10000x32_S32x32_S10000x32_1_0_0_1_n_n.lhsIdx j ((ValueIdx.contrEquiv1 dot_S10000x32_S32x32_S10000x32_1_0_0_1_n_n 32 rfl rfl).symm k) = ValueIdx.ix2 (Cert.Spec.row j) k := funext fun a => Fin.ext (by
    match a with
    | ⟨0, _⟩ => exact lhs_blk3_0 _ _
    | ⟨1, _⟩ => exact (lhs_blk3_1 _ _).trans hk)
  have er : dot_S10000x32_S32x32_S10000x32_1_0_0_1_n_n.rhsIdx j ((ValueIdx.contrEquiv1 dot_S10000x32_S32x32_S10000x32_1_0_0_1_n_n 32 rfl rfl).symm k) = ValueIdx.ix2 k (Cert.Spec.col j) := funext fun a => Fin.ext (by
    match a with
    | ⟨0, _⟩ => exact (rhs_blk3_0 _ _).trans hk
    | ⟨1, _⟩ => exact rhs_blk3_1 _ _)
  rw [ValueIdx.truncf_apply, ValueIdx.truncf_apply, shapeCast_self, el, er]

/-! ## From the blocks to the array -/

theorem offsets_zero3 : (![0, 0] : Fin 2 → Nat) = fun _ => 0 := funext fun a => by fin_cases a <;> rfl

/-- The product read at index `j` of a pair of blocks is the product of the whole arrays at index `i`, when row
    `j 0` of the left block is row `i 0` of the left array and column `j 1` of the right block is column `i 1`
    of the right array. -/
theorem mm_of_rows_cols3 {n n' K p p' : Nat} (x : Cert.Spec.I2 n K → EReal) (w : Cert.Spec.I2 K p → EReal)
    (x' : Cert.Spec.I2 n' K → EReal) (w' : Cert.Spec.I2 K p' → EReal) (j : Cert.Spec.I2 n p) (i : Cert.Spec.I2 n' p')
    (hx : ∀ k : Fin K, x (ValueIdx.ix2 (Cert.Spec.row j) k) = x' (ValueIdx.ix2 (Cert.Spec.row i) k))
    (hw : ∀ k : Fin K, w (ValueIdx.ix2 k (Cert.Spec.col j)) = w' (ValueIdx.ix2 k (Cert.Spec.col i))) :
    Cert.Spec.mm x w j = Cert.Spec.mm x' w' i := by
  rw [Cert.Spec.mm_apply, Cert.Spec.mm_apply]
  exact Finset.sum_congr rfl fun k _ => by rw [hx k, hw k]

/-- The printed index maps, decided over the grid: the left operand's and the result's block row is the grid point,
    their block column is 0, and the right operand stays at block (0, 0). -/
theorem index_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point `t` writes back is block `t` of the product of the two input arrays as the region finds them. -/
theorem flushed3_eq (c : Dev nD) (t : Fin cfg3.N) :
    (dat3 (F := Ideal) V c).flushed 2 t
      = ((cfg3.win 2).blk t).view.read (Elt Ideal) (Cert.Spec.mm (V c main_v42) (V c main_arg5)) := by
  show (cfg3.win 2).cut (grid3.coords t) ((dat3 V c).after 2 t) = _
  rw [after3_2]
  unfold out3_2
  rw [View.canon_unit_zero offsets_zero3]
  simp only [View.ld_unit_zero (S := S10000x32) offsets_zero3, View.ld_unit_zero (S := S32x32) offsets_zero3]
  obtain ⟨e0, e1, e2, e3, e4, e5⟩ := index_facts3 t
  funext j
  refine (pay3_apply (iblk3 V c 0 t) (iblk3 V c 1 t) j).trans ?_
  show _ = Cert.Spec.mm (V c main_v42) (V c main_arg5) (((cfg3.win 2).blk t).view.emb j)
  refine mm_of_rows_cols3 _ _ _ _ j _ (fun k => ?_) (fun k => ?_)
  · show V c main_v42 (((cfg3.win 0).blk t).view.emb (ValueIdx.ix2 (Cert.Spec.row j) k)) = _
    refine congrArg (V c main_v42) ?_
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 32 + 1 * k.val = k.val; omega
  · show V c main_arg5 (((cfg3.win 1).blk t).view.emb (ValueIdx.ix2 k (Cert.Spec.col j))) = _
    refine congrArg (V c main_arg5) ?_
    funext a; apply Fin.ext
    match a with
    | ⟨0, _⟩ => show win3_1.index t (0 : Fin 2) * 32 + 1 * k.val = k.val; omega
    | ⟨1, _⟩ => show win3_1.index t (1 : Fin 2) * 32 + 1 * (j 1).val = win3_2.index t (1 : Fin 2) * 32 + 1 * (j 1).val; omega

/-- An index of the result array is in point `t`'s block iff each coordinate is in the block's range on its axis. -/
theorem mem_blk3 (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v43).slice (win3_2.rect t)).set ↔ _
  rw [View.set_slice_whole, Rect.mem_set_unit]
  exact Iff.rfl

/-- The ten row blocks tile the result array: row `r` is in the block of point `r / 10000`. -/
theorem cover3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : (i 0).val / 10000 < cfg3.N := by show (i 0).val / 10000 < 10; omega
  obtain ⟨e0, e1, e2, e3, e4, e5⟩ := index_facts3 ⟨(i 0).val / 10000, hN⟩
  refine ⟨⟨(i 0).val / 10000, hN⟩, flush3_2 _, ?_⟩
  rw [mem_blk3]
  intro a
  match a with
  | ⟨0, _⟩ => show win3_2.index ⟨(i 0).val / 10000, hN⟩ (0 : Fin 2) * 10000 ≤ (i 0).val ∧ (i 0).val < win3_2.index ⟨(i 0).val / 10000, hN⟩ (0 : Fin 2) * 10000 + 10000; rw [e4]; show (i 0).val / 10000 * 10000 ≤ (i 0).val ∧ (i 0).val < (i 0).val / 10000 * 10000 + 10000; omega
  | ⟨1, _⟩ => show win3_2.index ⟨(i 0).val / 10000, hN⟩ (1 : Fin 2) * 32 ≤ (i 1).val ∧ (i 1).val < win3_2.index ⟨(i 0).val / 10000, hN⟩ (1 : Fin 2) * 32 + 32; rw [e5]; omega

/-- The result array after the run is the product of the two input arrays. -/
theorem final3 (c : Dev nD) :
    (dat3 (F := Ideal) V c).arrAt 2 cfg3.N = Cert.Spec.mm (V c main_v42) (V c main_arg5) := by
  exact (dat3 (F := Ideal) V c).arrAt_eq_of_cover 2 (Cert.Spec.mm (V c main_v42) (V c main_arg5))
    (fun t _ => flushed3_eq V c t) cover3

end Cert.KernelIdeal.Regions

end
-- ==== Proof.Region4.lean ====
import proofs.«118910_j31868657336593_1_alg».proof.Proof.Gen.KernelIdeal.Frame
import proofs.«118910_j31868657336593_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The body's one load per window and its one store start at the block's origin. -/
theorem zero_offsets4 : (![0, 0] : Fin 2 → Nat) = fun _ => 0 := funext fun a => by fin_cases a <;> rfl

/-- The stored value at `(p, q)` is the message entry `(p, q)` times the coefficient `(p, 0)`: the coefficient column is
    broadcast along the feature axis. -/
theorem pay4_apply (x0 : Vec Ideal S8000x32 .f32) (x1 : Vec Ideal S8000x1 .f32) (j : S8000x32.Idx) :
    k4_pay1 x0 x1 j = x0 j * x1 (ValueIdx.ix2 (⟨(j 0).val, (j 0).isLt⟩ : Fin 8000) (0 : Fin 1)) := by
  unfold k4_pay1
  show shapeCast S8000x32 x0 _ j * broadcastTo S8000x32 (shapeCast S8000x1 x1 _) _ j = _
  rw [shapeCast_self, shapeCast_self]
  rw [broadcastTo_apply x1 _ j (ValueIdx.ix2 (⟨(j 0).val, (j 0).isLt⟩ : Fin 8000) (0 : Fin 1)) ?_]
  intro a
  match a with
  | ⟨0, _⟩ => rfl
  | ⟨1, _⟩ => rfl

/-- At grid point `t` every window sits at block row `t`, block column `0`. -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0 :=
  (by decide +kernel : ∀ t : Fin grid4.N, _)

/-- What grid point `t` writes back is block `t` of the row-scaled array. -/
theorem flushed4_eq (c : Dev nD) (t : Fin cfg4.N) :
    (dat4 (F := Ideal) V c).flushed 2 t
      = ((cfg4.win 2).blk t).view.read (Elt Ideal) (Cert.Spec.scale (V c main_v50) (V c main_v28)) := by
  show (cfg4.win 2).cut (grid4.coords t) ((dat4 (F := Ideal) V c).after 2 t) = _
  rw [after4_2]
  unfold out4_2
  rw [View.canon_unit_zero zero_offsets4]
  simp only [View.ld_unit_zero (S := S8000x32) zero_offsets4, View.ld_unit_zero (S := S8000x1) zero_offsets4]
  obtain ⟨e0, e1, e2, e3, e4, e5⟩ := idx_facts4 t
  funext j
  show k4_pay1 (iblk4 V c 0 t) (iblk4 V c 1 t) j = _
  refine (pay4_apply (iblk4 V c 0 t) (iblk4 V c 1 t) j).trans ?_
  have h0 : ((cfg4.win 0).blk t).view.emb j = ((cfg4.win 2).blk t).view.emb j := by
    funext a; apply Fin.ext
    match a with
    | ⟨0, _⟩ => show win4_0.index t (0 : Fin 2) * 8000 + 1 * (j 0).val = win4_2.index t (0 : Fin 2) * 8000 + 1 * (j 0).val; omega
    | ⟨1, _⟩ => show win4_0.index t (1 : Fin 2) * 32 + 1 * (j 1).val = win4_2.index t (1 : Fin 2) * 32 + 1 * (j 1).val; omega
  have h1 : ((cfg4.win 1).blk t).view.emb (ValueIdx.ix2 (⟨(j 0).val, (j 0).isLt⟩ : Fin 8000) (0 : Fin 1))
      = ValueIdx.ix2 (Cert.Spec.row (((cfg4.win 2).blk t).view.emb j)) 0 := by
    funext a; apply Fin.ext
    match a with
    | ⟨0, _⟩ => show win4_1.index t (0 : Fin 2) * 8000 + 1 * (j 0).val = win4_2.index t (0 : Fin 2) * 8000 + 1 * (j 0).val; omega
    | ⟨1, _⟩ => show win4_1.index t (1 : Fin 2) * 1 + 1 * 0 = 0; omega
  have a0 : (iblk4 V c 0 t j : EReal) = V c main_v50 (((cfg4.win 2).blk t).view.emb j) := by
    show V c main_v50 (((cfg4.win 0).blk t).view.emb j) = _
    rw [h0]
  have a1 : (iblk4 V c 1 t (ValueIdx.ix2 (⟨(j 0).val, (j 0).isLt⟩ : Fin 8000) (0 : Fin 1)) : EReal)
      = V c main_v28 (ValueIdx.ix2 (Cert.Spec.row (((cfg4.win 2).blk t).view.emb j)) 0) := by
    show V c main_v28 (((cfg4.win 1).blk t).view.emb (ValueIdx.ix2 (⟨(j 0).val, (j 0).isLt⟩ : Fin 8000) (0 : Fin 1))) = _
    rw [h1]
  exact congrArg₂ (fun a b : EReal => a * b) a0 a1

/-- An index of the array is in point `t`'s block iff each coordinate is in the block's range on its axis. -/
theorem mem_blk4 (t : Fin cfg4.N) (i : S1600000x32.Idx) :
    i ∈ ((cfg4.win 2).blk t).view.set ↔ ∀ a : Fin 2, win4_2.index t a * S8000x32.size a ≤ (i a).val ∧ (i a).val < win4_2.index t a * S8000x32.size a + S8000x32.size a := by
  show i ∈ ((View.whole main_v51).slice (win4_2.rect t)).set ↔ _
  rw [View.set_slice_whole, Rect.mem_set_unit]
  exact Iff.rfl

/-- Every index lies in the block of the point numbered by its row divided by the block height. -/
theorem covered4 (i : S1600000x32.Idx) :
    ∃ t : Fin cfg4.N, (cfg4.win 2).flush t = true ∧ i ∈ ((cfg4.win 2).blk t).view.set := by
  have hi0 : (i 0).val < 1600000 := (i 0).isLt
  have hi1 : (i 1).val < 32 := (i 1).isLt
  let t : Fin cfg4.N := ⟨(i 0).val / 8000, by show _ < 200; omega⟩
  obtain ⟨e0, e1, e2, e3, e4, e5⟩ := idx_facts4 t
  have ht : t.val = (i 0).val / 8000 := rfl
  refine ⟨t, flush4_2 t, ?_⟩
  rw [mem_blk4]
  intro a
  match a with
  | ⟨0, _⟩ => show win4_2.index t (0 : Fin 2) * 8000 ≤ (i 0).val ∧ (i 0).val < win4_2.index t (0 : Fin 2) * 8000 + 8000; omega
  | ⟨1, _⟩ => show win4_2.index t (1 : Fin 2) * 32 ≤ (i 1).val ∧ (i 1).val < win4_2.index t (1 : Fin 2) * 32 + 32; omega

theorem final4 (c : Dev nD) :
    (dat4 (F := Ideal) V c).arrAt 2 cfg4.N = Cert.Spec.scale (V c main_v50) (V c main_v28) := by
  exact (dat4 (F := Ideal) V c).arrAt_eq_of_cover 2 (Cert.Spec.scale (V c main_v50) (V c main_v28))
    (fun t _ => flushed4_eq V c t) covered4

end Cert.KernelIdeal.Regions

end
-- ==== Proof.Region5.lean ====
import proofs.«118910_j31868657336593_1_alg».proof.Proof.Gen.KernelIdeal.Frame
import proofs.«118910_j31868657336593_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

open Idealize.ShloMosaic.ValueIdx

/-- The zero offset of a whole-buffer rectangle. -/
theorem zero_offset_region5 : (![0, 0] : Fin 2 → Nat) = fun _ => 0 := funext fun a => by fin_cases a <;> rfl

/-- The body's payload at row `p`, column `q` of its block: the aggregated message plus the row's coefficient times the
    projected feature plus the column's bias, clipped below at zero. -/
theorem combine_block5_apply (x0 : Vec Ideal S5000x32 .f32) (x2 : Vec Ideal S5000x1 .f32) (x1 : Vec Ideal S5000x32 .f32)
    (x3 : Vec Ideal S1x32 .f32) (p : Fin 5000) (q : Fin 32) :
    k5_pay1 x0 x2 x1 x3 (ix2 p q)
      = max (x0 (ix2 p q) + x2 (ix2 p 0) * x1 (ix2 p q) + x3 (ix2 0 q)) (Ideal.ofBits .f32 0x00000000#32) := by
  unfold k5_pay1
  simp only [shapeCast_self]
  rw [maximumf_apply, addf_apply, addf_apply, mulf_apply, broadcast_apply]
  rw [broadcastTo_1b_ab_apply x3 _ p q]
  rw [broadcastTo_apply x2 _ (ix2 p q) (ix2 p 0) (fun ax => by
    match ax with
    | ⟨0, _⟩ => rfl
    | ⟨1, _⟩ => rfl)]
  rfl

/-- The same at any index of the block. -/
theorem combine_block5 (x0 : Vec Ideal S5000x32 .f32) (x2 : Vec Ideal S5000x1 .f32) (x1 : Vec Ideal S5000x32 .f32)
    (x3 : Vec Ideal S1x32 .f32) (j : S5000x32.Idx) :
    k5_pay1 x0 x2 x1 x3 j
      = max (x0 j + x2 (ix2 (Cert.Spec.row j) 0) * x1 j + x3 (ix2 0 (Cert.Spec.col j))) (Ideal.ofBits .f32 0x00000000#32) := by
  obtain ⟨p, q, rfl⟩ : ∃ (p : Fin 5000) (q : Fin 32), j = ix2 p q := ⟨j 0, j 1, eq_ix2 j⟩
  exact combine_block5_apply x0 x2 x1 x3 p q

/-- The printed index maps over the grid: the three row-blocked inputs move with the output window, the bias window and
    every column block stay at zero. -/
theorem index_facts5 : ∀ t : Fin cfg5.N, win5_0.index t (0 : Fin 2) = win5_4.index t (0 : Fin 2)
    ∧ win5_0.index t (1 : Fin 2) = 0
    ∧ win5_1.index t (0 : Fin 2) = win5_4.index t (0 : Fin 2)
    ∧ win5_1.index t (1 : Fin 2) = 0
    ∧ win5_2.index t (0 : Fin 2) = win5_4.index t (0 : Fin 2)
    ∧ win5_2.index t (1 : Fin 2) = 0
    ∧ win5_3.index t (0 : Fin 2) = 0
    ∧ win5_3.index t (1 : Fin 2) = 0
    ∧ win5_4.index t (0 : Fin 2) ≤ 19
    ∧ win5_4.index t (1 : Fin 2) = 0 :=
  (by decide +kernel : ∀ t : Fin grid5.N, _)

/-- Every row block of the output is some point's. -/
theorem index_onto5 : ∀ (q0 : Fin 20), ∃ t : Fin cfg5.N, win5_4.index t = ![q0.val, 0] :=
  (by decide +kernel : ∀ (q0 : Fin 20), ∃ t : Fin grid5.N, win5_4.index t = ![q0.val, 0])

set_option maxHeartbeats 400000 in
/-- What point `t` writes back is block `t` of the node update of the four input arrays as the region finds them. -/
theorem flushed5_eq (c : Dev nD) (t : Fin cfg5.N) :
    (dat5 (F := Ideal) V c).flushed 4 t = ((cfg5.win 4).blk t).view.read (Elt Ideal)
      (Cert.Spec.combine (V c main_v54) (V c main_v43) (V c main_v12) (V c main_v55)) := by
  show (cfg5.win 4).cut (grid5.coords t) ((dat5 V c).after 4 t) = _
  rw [after5_4]
  unfold out5_4
  rw [View.canon_unit_zero zero_offset_region5]
  simp only [View.ld_unit_zero (S := S5000x32) zero_offset_region5, View.ld_unit_zero (S := S5000x1) zero_offset_region5,
    View.ld_unit_zero (S := S1x32) zero_offset_region5]
  obtain ⟨e0, e1, e2, e3, e4, e5, e6, e7, e8, e9⟩ := index_facts5 t
  funext j
  refine (combine_block5 _ _ _ _ j).trans ?_
  have h0 : ((cfg5.win 0).blk t).view.emb j = ((cfg5.win 4).blk t).view.emb j := by
    funext a; apply Fin.ext
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 32 + 1 * (j 1).val = win5_4.index t (1 : Fin 2) * 32 + 1 * (j 1).val; omega
  have h1 : ((cfg5.win 1).blk t).view.emb j = ((cfg5.win 4).blk t).view.emb j := by
    funext a; apply Fin.ext
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 32 + 1 * (j 1).val = win5_4.index t (1 : Fin 2) * 32 + 1 * (j 1).val; omega
  have h2 : ((cfg5.win 2).blk t).view.emb (ix2 (Cert.Spec.row j) 0) = ix2 (Cert.Spec.row (((cfg5.win 4).blk t).view.emb j)) 0 := by
    funext a; apply Fin.ext
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * 0 = 0; omega
  have h3 : ((cfg5.win 3).blk t).view.emb (ix2 0 (Cert.Spec.col j)) = ix2 0 (Cert.Spec.col (((cfg5.win 4).blk t).view.emb j)) := by
    funext a; apply Fin.ext
    match a with
    | ⟨0, _⟩ => show win5_3.index t (0 : Fin 2) * 1 + 1 * 0 = 0; omega
    | ⟨1, _⟩ => show win5_3.index t (1 : Fin 2) * 32 + 1 * (j 1).val = win5_4.index t (1 : Fin 2) * 32 + 1 * (j 1).val; omega
  have key : ∀ (A0 A1 : S100000x32.Idx → EReal) (A2 : S100000x1.Idx → EReal) (A3 : S1x32.Idx → EReal),
      max (A0 (((cfg5.win 0).blk t).view.emb j)
          + A2 (((cfg5.win 2).blk t).view.emb (ix2 (Cert.Spec.row j) 0)) * A1 (((cfg5.win 1).blk t).view.emb j)
          + A3 (((cfg5.win 3).blk t).view.emb (ix2 0 (Cert.Spec.col j)))) (Ideal.ofBits .f32 0x00000000#32)
        = Cert.Spec.combine A0 A1 A2 A3 (((cfg5.win 4).blk t).view.emb j) := by
    intro A0 A1 A2 A3
    rw [Cert.Spec.combine_apply, h0, h1, h2, h3]
  exact key (V c main_v54) (V c main_v43) (V c main_v12) (V c main_v55)

/-- An index of the array is in point `t`'s block iff each coordinate is in the block's range on its axis. -/
theorem mem_block5 (t : Fin cfg5.N) (i : S100000x32.Idx) :
    i ∈ ((cfg5.win 4).blk t).view.set ↔ ∀ a : Fin 2, win5_4.index t a * S5000x32.size a ≤ (i a).val ∧ (i a).val < win5_4.index t a * S5000x32.size a + S5000x32.size a := by
  show i ∈ ((View.whole main_v56).slice (win5_4.rect t)).set ↔ _
  rw [View.set_slice_whole, Rect.mem_set_unit]
  exact Iff.rfl

/-- Every index of the array is in the block of the point its row falls in: row `r` in block `r / 5000`. -/
theorem covered5 (i : S100000x32.Idx) :
    ∃ t : Fin cfg5.N, (cfg5.win 4).flush t = true ∧ i ∈ ((cfg5.win 4).blk t).view.set := by
  have hi0 : (i 0).val < 100000 := (i 0).isLt
  have hi1 : (i 1).val < 32 := (i 1).isLt
  obtain ⟨t, ht⟩ := index_onto5 ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_block5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 32 ≤ (i 1).val ∧ (i 1).val < win5_4.index t (1 : Fin 2) * 32 + 32; omega

/-- The output array after the run: the node update of the four input arrays as the region finds them. -/
theorem final5 (c : Dev nD) :
    (dat5 (F := Ideal) V c).arrAt 4 cfg5.N = Cert.Spec.combine (V c main_v54) (V c main_v43) (V c main_v12) (V c main_v55) := by
  exact (dat5 (F := Ideal) V c).arrAt_eq_of_cover 4
    (Cert.Spec.combine (V c main_v54) (V c main_v43) (V c main_v12) (V c main_v55))
    (fun t _ => flushed5_eq V c t) covered5

end Cert.KernelIdeal.Regions

end
-- ==== Proof.Flow.lean ====
/-
  The kernel's program, segment by segment, computes the reference's stages. Each region's output array is one
  whole-array function of its input arrays (a dense product, a row scaling, the node update), each of those is the
  reference's operation of the same meaning, and the host operations between the regions are the reference's own. So
  the array the program returns is the reference's result as a function of the nine arguments.
-/
import proofs.«118910_j31868657336593_1_alg».proof.Proof.FlowHost
import proofs.«118910_j31868657336593_1_alg».proof.Proof.RefStages
import proofs.«118910_j31868657336593_1_alg».proof.Proof.Region0
import proofs.«118910_j31868657336593_1_alg».proof.Proof.Region1
import proofs.«118910_j31868657336593_1_alg».proof.Proof.Region2
import proofs.«118910_j31868657336593_1_alg».proof.Proof.Region3
import proofs.«118910_j31868657336593_1_alg».proof.Proof.Region4
import proofs.«118910_j31868657336593_1_alg».proof.Proof.Region5

set_option maxRecDepth 16384

noncomputable section

namespace Cert.Flow

open Cert.KernelIdeal Cert.KernelIdeal.Gen Cert.KernelIdeal.Carry Cert.KernelIdeal.Regions
open Idealize.ShloMosaic Idealize.ShloMosaic.TcCoe Idealize.SL.Sem

variable (m : (ℓ : Loc nD τ sig) → Buf (Elt Ideal) ℓ) (ρ : Dev nD → PrngReg)

set_option maxHeartbeats 1000000 in
/-- Region 0 leaves the first layer's projected features `x · W₁`. -/
theorem r0_v29 (c : Dev nD) :
    W2 m ρ c (Proc.devRef .tc main_v29) = Cert.ReferenceIdeal.Read.val_main_v4 (F := Ideal) (A0 m c) (A3 m c) := by
  refine (W2_arr m ρ c 2).trans ?_
  rw [final0 (V1 m ρ) c]
  show Cert.Spec.mm (W1 m ρ c (Proc.devRef .tc main_arg0)) (W1 m ρ c (Proc.devRef .tc main_arg3)) = _
  rw [arg0_W1 m ρ c, arg3_W1 m ρ c]
  exact (Cert.ReferenceIdeal.Stages.dot3_eq _ _).symm

set_option maxHeartbeats 1000000 in
/-- Region 1 leaves the first layer's messages, each scaled by its edge's coefficient. -/
theorem r1_v37 (c : Dev nD) :
    W4 m ρ c (Proc.devRef .tc main_v37) = Cert.ReferenceIdeal.Read.val_main_v36 (F := Ideal) (A0 m c) (A1 m c) (A3 m c) := by
  refine (W4_arr m ρ c 2).trans ?_
  rw [final1 (V3 m ρ) c]
  show Cert.Spec.scale (W3 m ρ c (Proc.devRef .tc main_v36)) (W3 m ρ c (Proc.devRef .tc main_v28)) = _
  rw [h1_v36 m ρ c (r0_v29 m ρ c), v28_W3 m ρ c, h0_v28 m ρ c]
  exact (Cert.ReferenceIdeal.Stages.scale_eq _ _).symm

set_option maxHeartbeats 1000000 in
/-- Region 2 leaves the first layer's node features after the update and the clipping at zero. -/
theorem r2_v42 (c : Dev nD) :
    W6 m ρ c (Proc.devRef .tc main_v42) = Cert.ReferenceIdeal.Read.val_main_v48 (F := Ideal) (A0 m c) (A1 m c) (A3 m c) (A4 m c) := by
  refine (W6_arr m ρ c 4).trans ?_
  rw [final2 (V5 m ρ) c]
  show Cert.Spec.combine (W5 m ρ c (Proc.devRef .tc main_v40)) (W5 m ρ c (Proc.devRef .tc main_v29)) (W5 m ρ c (Proc.devRef .tc main_v12)) (W5 m ρ c (Proc.devRef .tc main_v41)) = _
  rw [h2_v40 m ρ c (r1_v37 m ρ c), v29_W5 m ρ c, r0_v29 m ρ c, v12_W5 m ρ c, h0_v12 m ρ c]
  exact (Cert.ReferenceIdeal.Stages.combine_eq _ _ _ (A4 m c) _ (h2_v41 m ρ c)).symm

set_option maxHeartbeats 1000000 in
/-- Region 3 leaves the second layer's projected features `h · W₂`. -/
theorem r3_v43 (c : Dev nD) :
    W7 m ρ c (Proc.devRef .tc main_v43) = Cert.ReferenceIdeal.Read.val_main_v49 (F := Ideal) (A0 m c) (A1 m c) (A3 m c) (A4 m c) (A5 m c) := by
  refine (W7_arr m ρ c 2).trans ?_
  rw [final3 (V6 m ρ) c]
  show Cert.Spec.mm (W6 m ρ c (Proc.devRef .tc main_v42)) (W6 m ρ c (Proc.devRef .tc main_arg5)) = _
  rw [r2_v42 m ρ c, arg5_W6 m ρ c]
  exact (Cert.ReferenceIdeal.Stages.dot32_eq _ _).symm

set_option maxHeartbeats 1000000 in
/-- Region 4 leaves the second layer's scaled messages. The reference computes the coefficients afresh for this layer,
    by the same operations on the same edge list: the same array. -/
theorem r4_v51 (c : Dev nD) :
    W9 m ρ c (Proc.devRef .tc main_v51) = Cert.ReferenceIdeal.Read.val_main_v81 (F := Ideal) (A0 m c) (A1 m c) (A3 m c) (A4 m c) (A5 m c) := by
  refine (W9_arr m ρ c 2).trans ?_
  rw [final4 (V8 m ρ) c]
  show Cert.Spec.scale (W8 m ρ c (Proc.devRef .tc main_v50)) (W8 m ρ c (Proc.devRef .tc main_v28)) = _
  rw [h4_v50 m ρ c (r3_v43 m ρ c), v28_W8 m ρ c, h0_v28 m ρ c]
  exact (Cert.ReferenceIdeal.Stages.scale_eq _ _).symm

set_option maxHeartbeats 1000000 in
/-- Region 5 leaves the second layer's node features. -/
theorem r5_v56 (c : Dev nD) :
    W11 m ρ c (Proc.devRef .tc main_v56) = Cert.ReferenceIdeal.Read.val_main_v93 (F := Ideal) (A0 m c) (A1 m c) (A3 m c) (A4 m c) (A5 m c) (A6 m c) := by
  refine (W11_arr m ρ c 4).trans ?_
  rw [final5 (V10 m ρ) c]
  show Cert.Spec.combine (W10 m ρ c (Proc.devRef .tc main_v54)) (W10 m ρ c (Proc.devRef .tc main_v43)) (W10 m ρ c (Proc.devRef .tc main_v12)) (W10 m ρ c (Proc.devRef .tc main_v55)) = _
  rw [h5_v54 m ρ c (r4_v51 m ρ c), v43_W10 m ρ c, r3_v43 m ρ c, v12_W10 m ρ c, h0_v12 m ρ c]
  exact (Cert.ReferenceIdeal.Stages.combine_eq _ _ _ (A6 m c) _ (h5_v55 m ρ c)).symm

/-- THE RESULT: the array the kernel's program returns is the reference's result stage of the nine arguments. -/
theorem result (c : Dev nD) :
    W12 m ρ c (Proc.devRef .tc main_v72) = Cert.ReferenceIdeal.Read.val_main_v109 (F := Ideal) (A0 m c) (A1 m c) (A2 m c) (A3 m c) (A4 m c) (A5 m c) (A6 m c) (A7 m c) (A8 m c) :=
  h6_v72 m ρ c (r5_v56 m ρ c)

end Cert.Flow

end
-- ==== Proof.lean ====
/-
  The certificate of a two-layer graph convolution with mean pooling and a dense output layer. The kernel's program
  runs six pipelined regions — two dense products `x · W`, two scalings of the gathered edge messages by the
  symmetric normalisation coefficients, two node updates `max (agg + dinv² · xw + b) 0` — among the host operations
  that gather along edges, scatter-add into nodes and pool over graphs; the reference runs the whole network as host
  operations. On the extended reals every region's output array is the reference's operation of the same meaning
  applied to the same operands (a product into a zero accumulator is the plain sum over the contracted axis; a change
  of float format is the identity; the factors of the self-loop term commute), and the host operations in between are
  the reference's own, applied to equal arrays. So the two results agree entry by entry, with no use of finiteness.
  The three frames are the generated ones (the reference's is its run with the result dropped); the idealization
  ledger is empty.
-/
import proofs.«118910_j31868657336593_1_alg».proof.Defs
import proofs.«118910_j31868657336593_1_alg».proof.Proof.Gen.Kernel
import proofs.«118910_j31868657336593_1_alg».proof.Proof.Gen.Kernel.Skeleton
import proofs.«118910_j31868657336593_1_alg».proof.Proof.Gen.Kernel.Launch
import proofs.«118910_j31868657336593_1_alg».proof.Proof.Gen.Kernel.Points
import proofs.«118910_j31868657336593_1_alg».proof.Proof.Gen.Kernel.Frame
import proofs.«118910_j31868657336593_1_alg».proof.Proof.Gen.KernelIdeal
import proofs.«118910_j31868657336593_1_alg».proof.Proof.Gen.KernelIdeal.Skeleton
import proofs.«118910_j31868657336593_1_alg».proof.Proof.Gen.KernelIdeal.Launch
import proofs.«118910_j31868657336593_1_alg».proof.Proof.Gen.KernelIdeal.Points
import proofs.«118910_j31868657336593_1_alg».proof.Proof.Gen.KernelIdeal.Frame
import proofs.«118910_j31868657336593_1_alg».proof.Proof.Gen.ReferenceIdeal
import proofs.«118910_j31868657336593_1_alg».proof.Proof.Gen.ReferenceIdeal.Run
import proofs.«118910_j31868657336593_1_alg».proof.Proof.Gen.ReferenceIdeal.Read
import proofs.«118910_j31868657336593_1_alg».proof.Proof.Gen.Pre_finite_inputs
import proofs.«118910_j31868657336593_1_alg».proof.Proof.KernelRun
import proofs.«118910_j31868657336593_1_alg».proof.Proof.Flow
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization applied no rewrite: nothing to preserve. -/
theorem preserves : Cert.preserves_Kernel_KernelIdeal := trivial

set_option maxHeartbeats 1000000 in
/-- Both programs end with the reference's result stage of the (agreeing) arguments in their result arrays. -/
theorem algebraic : Cert.algebraic_KernelIdeal_ReferenceIdeal := by
  intro m ρ m' ρ' _ hagree
  refine ⟨fun c => Cert.KernelIdeal.Gen.W12 m ρ c (Proc.devRef .tc Cert.KernelIdeal.main_v72),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v109_eq, h0, h1, h2, h3, h4, h5, h6, h7, h8]
  exact (Cert.Flow.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
